-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x32 : Shape := ⟨2, ![640000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x32 : S_.BroadcastsInDim S640000x32 (![] : Fin 0 → Fin S640000x32.rank)
  reducesTo_S640000x32_S_d0_1 : S640000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 4294917296#32
  let main_v59 : IVec S2x640000 32 := broadcastInDim S2x640000 ![] bcast_S_S2x640000 main_c_22
  let main_v60 : IVec S2x640000 1 := cmpi .sge main_arg1 main_v59
  let main_c_23 : IVec S_ 1 := constantI S_ 1 1#1
  let main_v61 : IVec S_ 1 := (fun x v => Host.reduce IntOp.andi x v reducesTo_S2x640000_S_d0_1 h_S_) main_v60 main_c_23
  let main_v62 : IVec S_ 1 := andi main_v58 main_v61
  let main_c_24 : IVec S_ 32 := constantI S_ 32 50000#32
  let main_v63 : IVec S2x640000 32 := broadcastInDim S2x640000 ![] bcast_S_S2x640000 main_c_24
  let main_v64 : IVec S2x640000 1 := cmpi .slt main_arg1 main_v63
  let main_c_25 : IVec S_ 1 := constantI S_ 1 1#1
  let main_v65 : IVec S_ 1 := (fun x v => Host.reduce IntOp.andi x v reducesTo_S2x640000_S_d0_1 h_S_) main_v64 main_c_25
  let main_v66 : IVec S_ 1 := andi main_v62 main_v65
  main_v66

def fn_part2 {F : FTy → Type} [FloatOps F] (main_arg1 : IVec S2x640000 32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_v48 main_v49 main_v50

def fn_part1 {F : FTy → Type} [FloatOps F] (main_arg1 : IVec S2x640000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x640000 32) (main_arg2 : FVec F S640000x32 .f32) (main_arg3 : FVec F S288x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x32 .f32 := Host.absf main_arg2
  let main_cst_0 : FVec F S_ .f32 := constant S_ .f32 0x7F800000#32
  let main_v5 : FVec F S640000x32 .f32 := broadcastInDim S640000x32 ![] bcast_S_S640000x32 main_cst_0
  let main_v6 : IVec S640000x32 1 := cmpf .olt main_v4 main_v5
  let main_c_1 : IVec S_ 1 := constantI S_ 1 1#1
  let main_v7 : IVec S_ 1 := (fun x v => Host.reduce IntOp.andi x v reducesTo_S640000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x640000 : Shape := ⟨2, ![2, 640000]⟩
abbrev S640000x32 : Shape := ⟨2, ![640000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S32x128 : Shape := ⟨2, ![32, 128]⟩
abbrev S5000x128 : Shape := ⟨2, ![5000, 128]⟩
abbrev S5000x32 : Shape := ⟨2, ![5000, 32]⟩
abbrev S1x128 : Shape := ⟨2, ![1, 128]⟩
abbrev S5000 : Shape := ⟨1, ![5000]⟩
abbrev S5000x1 : Shape := ⟨2, ![5000, 1]⟩

abbrev nBuf : Space → Nat
  | .hbm => 74
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S1, .i32⟩
  | .hbm, ⟨26, _⟩ => ⟨S_, .i32⟩
  | .hbm, ⟨27, _⟩ => ⟨S640000x1, .i32⟩
  | .hbm, ⟨28, _⟩ => ⟨S640000x1, .i1⟩
  | .hbm, ⟨29, _⟩ => ⟨S1x1, .i32⟩
  | .hbm, ⟨30, _⟩ => ⟨S640000x1, .i32⟩
  | .hbm, ⟨31, _⟩ => ⟨S640000x1, .i1⟩
  | .hbm, ⟨32, _⟩ => ⟨S640000x1, .i1⟩
  | .hbm, ⟨33, _⟩ => ⟨S_, .i1⟩
  | .hbm, ⟨34, _⟩ => ⟨S640000, .i1⟩
  | .hbm, ⟨35, _⟩ => ⟨S640000x128, .f32⟩
  | .hbm, ⟨36, _⟩ => ⟨S640000x128, .i1⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S1, .i32⟩
  | .hbm, ⟨49, _⟩ => ⟨S_, .i32⟩
  | .hbm, ⟨50, _⟩ => ⟨S640000x1, .i32⟩
  | .hbm, ⟨51, _⟩ => ⟨S640000x1, .i1⟩
  | .hbm, ⟨52, _⟩ => ⟨S1x1, .i32⟩
  | .hbm, ⟨53, _⟩ => ⟨S640000x1, .i32⟩
  | .hbm, ⟨54, _⟩ => ⟨S640000x1, .i1⟩
  | .hbm, ⟨55, _⟩ => ⟨S640000x1, .i1⟩
  | .hbm, ⟨56, _⟩ => ⟨S_, .i1⟩
  | .hbm, ⟨57, _⟩ => ⟨S640000, .i1⟩
  | .hbm, ⟨58, _⟩ => ⟨S640000x128, .f32⟩
  | .hbm, ⟨59, _⟩ => ⟨S640000x128, .i1⟩
  | .hbm, ⟨60, _⟩ => ⟨S_, .f32⟩
  | .hbm, ⟨61, _⟩ => ⟨S640000x128, .f32⟩
  | .hbm, ⟨62, _⟩ => ⟨S640000x128, .f32⟩
  | .hbm, ⟨63, _⟩ => ⟨S128x128, .f32⟩
  | .hbm, ⟨64, _⟩ => ⟨S128x128, .f32⟩
  | .hbm, ⟨65, _⟩ => ⟨S32x128, .f32⟩
  | .hbm, ⟨66, _⟩ => ⟨S640000x128, .f32⟩
  | .hbm, ⟨67, _⟩ => ⟨S_, .f32⟩
  | .hbm, ⟨68, _⟩ => ⟨S50000x128, .f32⟩
  | .hbm, ⟨69, _⟩ => ⟨S640000x1, .i32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x32, .f32⟩
  | .local _ .vmem, ⟨5, _⟩ => ⟨S5000x32, .f32⟩
  | .local _ .vmem, ⟨6, _⟩ => ⟨S128x128, .f32⟩
  | .local _ .vmem, ⟨7, _⟩ => ⟨S128x128, .f32⟩
  | .local _ .vmem, ⟨8, _⟩ => ⟨S32x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S288x128_S128x128_0_0 : S288x128.Slices ![0, 0] S128x128
  slices_S288x128_S128x128_128_0 : S288x128.Slices ![128, 0] S128x128
  slices_S288x128_S32x128_256_0 : S288x128.Slices ![256, 0] S32x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  reduces_S5000x128_S5000 : S5000x128.Reduces [1] S5000
  shapeCasts_S5000_S5000x1 : S5000.ShapeCasts S5000x1
  broadcasts_S5000x1_S5000x128 : S5000x1.Broadcasts S5000x128
  gather_S50000x128_S640000x1_S640000x128_1_0_n_n_0_1_1128_wf : GatherDims.WF S50000x128 S640000x1 S640000x128 [1] [0] [] [0] [] 1 ![1, 128]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S640000x32.size a
  hwx0_2 : ∀ i : grid0.Coords, EltTy.bits .f32 = 32 ∨ (Rect.block (s := S640000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S640000x128.size a
  hwx0_9 : ∀ i : grid0.Coords, EltTy.bits .f32 = 32 ∨ (Rect.block (s := S640000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x32 : Shape := ⟨2, ![640000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x288 : Shape := ⟨2, ![640000, 288]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S640000x288, .f32⟩
  | .hbm, ⟨36, _⟩ => ⟨S640000x128, .f32⟩
  | .hbm, ⟨37, _⟩ => ⟨S1x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S50000x128, .f32⟩
  | .hbm, ⟨49, _⟩ => ⟨S640000x1, .i32⟩
  | .hbm, ⟨50, _⟩ => ⟨S50000x128, .f32⟩
  | .hbm, ⟨51, _⟩ => ⟨S50000x256, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x32_S640000x288_d1 : Shape.Concatenates [S640000x128, S640000x128, S640000x32] S640000x288 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x288_S288x128_S640000x128_1_0_0_1_n_n_wf : DotDims.WF S640000x288 S288x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x288_S288x128_S640000x128_1_0_0_1_n_n : DotDims S640000x288 S288x128 S640000x128 where
  lhsContracting := [1]
  rhsContracting := [0]
  lhsNonContracting := [0]
  rhsNonContracting := [1]
  lhsBatch := []
  rhsBatch := []
  wf := dot_S640000x288_S288x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of one message-passing layer, row by row, on the extended reals.

  An edge's message is a two-layer perceptron of the row `[h_src | h_dst | e]` (288 entries); the first layer's
  weight `W1` has 288 rows, and a product with the concatenated row is the sum of three products with the row
  blocks `0..127`, `128..255`, `256..287` of `W1`. A node's update is a two-layer perceptron of `[h | agg]`
  (256 entries, two row blocks of its weight), added to `h`, then normalised along the row: centred by the row's
  mean, scaled by `1 / sqrt (variance + eps)`, then by `gamma`, and shifted by `beta`.

  Every function here is stated over the three (or two) row blocks of the first weight as SEPARATE matrices, which
  is how the blocked program receives them; `sum_three_blocks` and `sum_two_blocks` are the law that joins this
  form to a single product over the concatenated axis. That law is associativity and commutativity of addition
  only, which hold on all of `EReal`, so nothing here asks an entry to be finite.
-/
import Idealize.ShloMosaic.PureOps.Ideal
import Idealize.ShloMosaic.Lib.ValueIdx
import Mathlib.Algebra.BigOperators.Fin

noncomputable section

namespace Cert.Mpnn

open Idealize.ShloMosaic Idealize.ShloMosaic.ValueIdx
open scoped BigOperators

/-- The float zero the rectifier compares against. -/
abbrev zeroF : EReal := Ideal.ofBits .f32 0x00000000#32
/-- The row length `128`, as the float both programs divide by. -/
abbrev c128 : EReal := Ideal.ofBits .f32 0x43000000#32
/-- The normalisation's epsilon, the same float word in both programs. -/
abbrev epsF : EReal := Ideal.ofBits .f32 0x3727C5AC#32

abbrev Mat (a b : ℕ) := (⟨2, ![a, b]⟩ : Shape).Idx → EReal
abbrev Vec1 (a : ℕ) := (⟨1, ![a]⟩ : Shape).Idx → EReal

/-! ## A sum over a concatenated axis is the sum of the sums over its pieces -/

theorem sum_two_blocks {M : Type} [AddCommMonoid M] (f : Fin 256 → M) :
    ∑ k : Fin 256, f k = (∑ l : Fin 128, f ⟨l.val, by omega⟩) + ∑ l : Fin 128, f ⟨128 + l.val, by omega⟩ := by
  have h := Fin.sum_univ_add (a := 128) (b := 128) (fun k : Fin (128 + 128) => f ⟨k.val, by omega⟩)
  refine (Eq.trans ?_ h).trans ?_
  · exact Finset.sum_congr rfl fun k _ => rfl
  · exact congrArg₂ (· + ·) (Finset.sum_congr rfl fun l _ => rfl) (Finset.sum_congr rfl fun l _ => rfl)

theorem sum_three_blocks {M : Type} [AddCommMonoid M] (f : Fin 288 → M) :
    ∑ k : Fin 288, f k
      = ((∑ l : Fin 128, f ⟨l.val, by omega⟩) + ∑ l : Fin 128, f ⟨128 + l.val, by omega⟩) + ∑ l : Fin 32, f ⟨256 + l.val, by omega⟩ := by
  have h := Fin.sum_univ_add (a := 256) (b := 32) (fun k : Fin (256 + 32) => f ⟨k.val, by omega⟩)
  have h2 := sum_two_blocks (fun k : Fin 256 => f ⟨k.val, by omega⟩)
  refine (Eq.trans ?_ h).trans ?_
  · exact Finset.sum_congr rfl fun k _ => rfl
  · refine congrArg₂ (· + ·) ?_ (Finset.sum_congr rfl fun l _ => rfl)
    exact (Eq.trans (Finset.sum_congr rfl fun l _ => rfl) h2)

/-! ## The edge perceptron, one row -/

/-- The hidden row of an edge: `relu (hs · Ws + hd · Wd + e · We + b1)`. -/
def edgeHidden (hs hd : Fin 128 → EReal) (ea : Fin 32 → EReal) (Ws Wd : Mat 128 128) (We : Mat 32 128) (b1 : Vec1 128)
    (k : Fin 128) : EReal :=
  max ((((∑ l : Fin 128, hs l * Ws (ix2 l k)) + ∑ l : Fin 128, hd l * Wd (ix2 l k)) + ∑ l : Fin 32, ea l * We (ix2 l k))
    + b1 (ix1 k)) zeroF

/-- An edge's message: `hidden · W2 + b2`. -/
def edgeMsg (hs hd : Fin 128 → EReal) (ea : Fin 32 → EReal) (Ws Wd : Mat 128 128) (We : Mat 32 128) (b1 : Vec1 128)
    (W2 : Mat 128 128) (b2 : Vec1 128) (j : Fin 128) : EReal :=
  (∑ k : Fin 128, edgeHidden hs hd ea Ws Wd We b1 k * W2 (ix2 k j)) + b2 (ix1 j)

/-! ## The node update, one row -/

/-- The hidden row of a node: `relu (x · Wh + a · Wa + b1)`. -/
def nodeHidden (x a : Fin 128 → EReal) (Wh Wa : Mat 128 128) (b1 : Vec1 128) (k : Fin 128) : EReal :=
  max (((∑ l : Fin 128, x l * Wh (ix2 l k)) + ∑ l : Fin 128, a l * Wa (ix2 l k)) + b1 (ix1 k)) zeroF

/-- The row before normalisation: `x + (hidden · W2 + b2)`. -/
def nodePre (x a : Fin 128 → EReal) (Wh Wa : Mat 128 128) (b1 : Vec1 128) (W2 : Mat 128 128) (b2 : Vec1 128)
    (q : Fin 128) : EReal :=
  x q + ((∑ k : Fin 128, nodeHidden x a Wh Wa b1 k * W2 (ix2 k q)) + b2 (ix1 q))

/-- A row's mean: its sum over `128`. -/
def rowMean (x : Fin 128 → EReal) : EReal := Ideal.div (∑ k : Fin 128, x k) c128

/-- A row's variance: the mean of its squared deviations. -/
def rowVar (x : Fin 128 → EReal) : EReal :=
  Ideal.div (∑ k : Fin 128, (x k - rowMean x) * (x k - rowMean x)) c128

/-- The normalised row. -/
def layerNorm (x : Fin 128 → EReal) (γ β : Vec1 128) (q : Fin 128) : EReal :=
  ((x q - rowMean x) * Ideal.rsqrt (rowVar x + epsF)) * γ (ix1 q) + β (ix1 q)

/-! ## Whole arrays: every row by itself, for any number of rows -/

/-- Row `p` of an `[n, k]` array. -/
abbrev rowOf {n k : ℕ} (X : Mat n k) (p : Fin n) : Fin k → EReal := fun l => X (ix2 p l)

/-- The messages of `n` edges. -/
def msgRows {n : ℕ} (hs hd : Mat n 128) (ea : Mat n 32) (Ws Wd : Mat 128 128) (We : Mat 32 128) (b1 : Vec1 128)
    (W2 : Mat 128 128) (b2 : Vec1 128) : Mat n 128 :=
  fun i => edgeMsg (rowOf hs (i 0)) (rowOf hd (i 0)) (rowOf ea (i 0)) Ws Wd We b1 W2 b2 (i 1)

/-- The updated, normalised rows of `n` nodes. -/
def nodeRows {n : ℕ} (h agg : Mat n 128) (Wh Wa : Mat 128 128) (b1 : Vec1 128) (W2 : Mat 128 128) (b2 γ β : Vec1 128) :
    Mat n 128 :=
  fun i => layerNorm (nodePre (rowOf h (i 0)) (rowOf agg (i 0)) Wh Wa b1 W2 b2) γ β (i 1)

theorem msgRows_apply {n : ℕ} (hs hd : Mat n 128) (ea : Mat n 32) (Ws Wd : Mat 128 128) (We : Mat 32 128) (b1 : Vec1 128)
    (W2 : Mat 128 128) (b2 : Vec1 128) (p : Fin n) (j : Fin 128) :
    msgRows hs hd ea Ws Wd We b1 W2 b2 (ix2 p j) = edgeMsg (rowOf hs p) (rowOf hd p) (rowOf ea p) Ws Wd We b1 W2 b2 j := rfl

theorem nodeRows_apply {n : ℕ} (h agg : Mat n 128) (Wh Wa : Mat 128 128) (b1 : Vec1 128) (W2 : Mat 128 128)
    (b2 γ β : Vec1 128) (p : Fin n) (q : Fin 128) :
    nodeRows h agg Wh Wa b1 W2 b2 γ β (ix2 p q) = layerNorm (nodePre (rowOf h p) (rowOf agg p) Wh Wa b1 W2 b2) γ β q := rfl

end Cert.Mpnn

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.EdgeBlock.lean ====
/-
  The edge kernel's block value. On a block of 5000 edges the body computes, from the blocks of `h_src`, `h_dst`
  and the edge attributes and from the weights, the messages of those 5000 edges: each row by itself.
-/
import proofs.«428248_j7799660609777_1_alg».proof.Proof.Gen.KernelIdeal.Skeleton
import proofs.«428248_j7799660609777_1_alg».proof.Proof.Spec
import proofs.«428248_j7799660609777_1_alg».proof.Proof.LibRowOps

noncomputable section

namespace Cert.Mpnn.EdgeBlock

open Idealize.ShloMosaic Idealize.ShloMosaic.ValueIdx Cert.Mpnn
open scoped BigOperators

open Cert.KernelIdeal Cert.KernelIdeal.Gen

/-- The rectified hidden block at `(p, k)` is the hidden row of edge `p` at `k`: three products into zero, each the
    partial sum over one row block of the first weight, plus the bias entry, against the zero word. -/
private theorem hidden_apply (x0 x1 : Vec Ideal S5000x128 .f32) (x2 : Vec Ideal S5000x32 .f32) (x3 x4 : Vec Ideal S128x128 .f32)
    (x5 : Vec Ideal S32x128 .f32) (x6 : Vec Ideal S128 .f32) (p : Fin 5000) (k : Fin 128) :
    maximumf
      (addf
        (addf
          (addf
            (matmul dot_S5000x128_S128x128_S5000x128_1_0_0_1_n_n none
              (truncf .bf16 (shapeCast S5000x128 x0 shapeCasts_S5000x128_S5000x128) bitsLt_bf16_f32)
              (truncf .bf16 (shapeCast S128x128 x3 shapeCasts_S128x128_S128x128) bitsLt_bf16_f32)
              (constant S5000x128 .f32 0x00000000#32))
            (matmul dot_S5000x128_S128x128_S5000x128_1_0_0_1_n_n none
              (truncf .bf16 (shapeCast S5000x128 x1 shapeCasts_S5000x128_S5000x128) bitsLt_bf16_f32)
              (truncf .bf16 (shapeCast S128x128 x4 shapeCasts_S128x128_S128x128) bitsLt_bf16_f32)
              (constant S5000x128 .f32 0x00000000#32)))
          (matmul dot_S5000x32_S32x128_S5000x128_1_0_0_1_n_n none
            (truncf .bf16 x2 bitsLt_bf16_f32)
            (truncf .bf16 (shapeCast S32x128 x5 shapeCasts_S32x128_S32x128) bitsLt_bf16_f32)
            (constant S5000x128 .f32 0x00000000#32)))
        (broadcastTo S5000x128 (shapeCast S1x128 x6 shapeCasts_S128_S1x128) broadcasts_S1x128_S5000x128))
      (broadcast S5000x128 (Scalar.ofBits (F := Ideal) .f32 0x00000000#32)) (ix2 p k)
    = edgeHidden (rowOf x0 p) (rowOf x1 p) (rowOf x2 p) x3 x4 x5 x6 k := by
  rw [shapeCast_self x0, shapeCast_self x1, shapeCast_self x3, shapeCast_self x4, shapeCast_self x5]
  unfold edgeHidden
  refine congrArg₂ max ?_ rfl
  refine congrArg₂ (· + ·) (congrArg₂ (· + ·) (congrArg₂ (· + ·) ?_ ?_) ?_) ?_
  · exact Cert.LibRowOps.prod_apply _ rfl _ _ p k (rowOf x0 p) (fun l => rfl)
  · exact Cert.LibRowOps.prod_apply _ rfl _ _ p k (rowOf x1 p) (fun l => rfl)
  · exact Cert.LibRowOps.prod_apply _ rfl _ _ p k (rowOf x2 p) (fun l => rfl)
  · exact Cert.LibRowOps.rowBcast_apply x6 _ _ p k

/-- The body's one stored value is `msgRows` of its loads: the three products into zero accumulators are the three
    partial sums of the hidden row, the bias rows are broadcast down the block, the rectifier is `max · 0`, and a change
    of float format is the identity on the extended reals. -/
theorem pay_eq (x0 x1 : Vec Ideal S5000x128 .f32) (x2 : Vec Ideal S5000x32 .f32) (x3 x4 : Vec Ideal S128x128 .f32)
    (x5 : Vec Ideal S32x128 .f32) (x6 : Vec Ideal S128 .f32) (x7 : Vec Ideal S128x128 .f32) (x8 : Vec Ideal S128 .f32) :
    k0_pay1 (F := Ideal) x0 x1 x2 x3 x4 x5 x6 x7 x8 = msgRows (n := 5000) x0 x1 x2 x3 x4 x5 x6 x7 x8 := by
  funext i
  obtain ⟨p, j, rfl⟩ : ∃ (p : Fin 5000) (j : Fin 128), i = ix2 p j := ⟨i 0, i 1, eq_ix2 i⟩
  rw [msgRows_apply]
  unfold k0_pay1 edgeMsg
  exact Cert.LibRowOps.layer_apply _ rfl _ _ x8 _ _ p j
    (fun k => edgeHidden (rowOf x0 p) (rowOf x1 p) (rowOf x2 p) x3 x4 x5 x6 k)
    (fun k => hidden_apply x0 x1 x2 x3 x4 x5 x6 p k)

end Cert.Mpnn.EdgeBlock

end
-- ==== Proof.EdgeArray.lean ====
/-
  From blocks to the array, edge kernel. The grid has 128 points; point `t` stages rows `5000 t … 5000 t + 4999` of
  the three per-edge operands, the weights whole, and writes back rows `5000 t … 5000 t + 4999` of the result. Every
  row is some point's, and what a point writes is the messages of its own rows, so the array ends as the messages of
  all 640000 edges.
-/
import proofs.«428248_j7799660609777_1_alg».proof.Proof.Gen.KernelIdeal.Frame
import proofs.«428248_j7799660609777_1_alg».proof.Proof.EdgeBlock
import Idealize.ShloMosaic.Lib.Pipeline.Value

set_option maxRecDepth 16384

noncomputable section

namespace Cert.Mpnn.EdgeArray

open Idealize.ShloMosaic Idealize.ShloMosaic.TcCoe Idealize.ShloMosaic.ValueIdx Idealize.SL.Sem Cert.Mpnn
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 128 grid points: the per-edge operands and the result move one block of
    rows per point, the weights and biases stay at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = t.val
    ∧ win0_9.index t (1 : Fin 2) = 0 :=
  (by decide +kernel : ∀ t : Fin grid0.N, _)

theorem point_lt (t : Fin cfg0.N) : t.val < 128 := lt_of_lt_of_eq t.isLt N_0

/-- Window 0's block at point `t` is rows `5000 t … 5000 t + 4999` of its array. -/
theorem read0 (c : Dev nD) (t : Fin cfg0.N) (p : Fin 5000) (l : Fin 128) (hb : 5000 * t.val + p.val < 640000) :
    (iblk0 V c 0 t : Mat 5000 128) (ix2 p l) = (V c main_v4 : Mat 640000 128) (ix2 ⟨5000 * t.val + p.val, hb⟩ l) := by
  obtain ⟨e0, e1, e2, e3, e4, e5, e6, e7, e8, e9, e10, e11, e12, e13, e14, e15, e16, e17⟩ := idx_facts t
  show V c main_v4 (((cfg0.win 0).blk t).view.emb (ix2 p l)) = _
  refine congrArg (V c main_v4) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * l.val = l.val; omega

/-- Window 1's block at point `t` is rows `5000 t … 5000 t + 4999` of its array. -/
theorem read1 (c : Dev nD) (t : Fin cfg0.N) (p : Fin 5000) (l : Fin 128) (hb : 5000 * t.val + p.val < 640000) :
    (iblk0 V c 1 t : Mat 5000 128) (ix2 p l) = (V c main_v5 : Mat 640000 128) (ix2 ⟨5000 * t.val + p.val, hb⟩ l) := by
  obtain ⟨e0, e1, e2, e3, e4, e5, e6, e7, e8, e9, e10, e11, e12, e13, e14, e15, e16, e17⟩ := idx_facts t
  show V c main_v5 (((cfg0.win 1).blk t).view.emb (ix2 p l)) = _
  refine congrArg (V c main_v5) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * l.val = l.val; omega

/-- Window 2's block at point `t` is rows `5000 t … 5000 t + 4999` of its array. -/
theorem read2 (c : Dev nD) (t : Fin cfg0.N) (p : Fin 5000) (l : Fin 32) (hb : 5000 * t.val + p.val < 640000) :
    (iblk0 V c 2 t : Mat 5000 32) (ix2 p l) = (V c main_arg2 : Mat 640000 32) (ix2 ⟨5000 * t.val + p.val, hb⟩ l) := by
  obtain ⟨e0, e1, e2, e3, e4, e5, e6, e7, e8, e9, e10, e11, e12, e13, e14, e15, e16, e17⟩ := idx_facts t
  show V c main_arg2 (((cfg0.win 2).blk t).view.emb (ix2 p l)) = _
  refine congrArg (V c main_arg2) (funext fun a => Fin.ext ?_)
  match a with
  | ⟨0, _⟩ => show win0_2.index t (0 : Fin 2) * 5000 + 1 * p.val = 5000 * t.val + p.val; omega
  | ⟨1, _⟩ => show win0_2.index t (1 : Fin 2) * 32 + 1 * l.val = l.val; omega

/-- Window 3 stages its whole array at every point. -/
theorem read3 (c : Dev nD) (t : Fin cfg0.N) : (iblk0 V c 3 t : Mat 128 128) = V c main_v6 := by
  obtain ⟨e0, e1, e2, e3, e4, e5, e6, e7, e8, e9, e10, e11, e12, e13, e14, e15, e16, e17⟩ := idx_facts t
  funext y
  show V c main_v6 (((cfg0.win 3).blk t).view.emb y) = V c main_v6 y
  refine congrArg (V c main_v6) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages its whole array at every point. -/
theorem read4 (c : Dev nD) (t : Fin cfg0.N) : (iblk0 V c 4 t : Mat 128 128) = V c main_v7 := by
  obtain ⟨e0, e1, e2, e3, e4, e5, e6, e7, e8, e9, e10, e11, e12, e13, e14, e15, e16, e17⟩ := idx_facts t
  funext y
  show V c main_v7 (((cfg0.win 4).blk t).view.emb y) = V c main_v7 y
  refine congrArg (V c main_v7) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 stages its whole array at every point. -/
theorem read5 (c : Dev nD) (t : Fin cfg0.N) : (iblk0 V c 5 t : Mat 32 128) = V c main_v8 := by
  obtain ⟨e0, e1, e2, e3, e4, e5, e6, e7, e8, e9, e10, e11, e12, e13, e14, e15, e16, e17⟩ := idx_facts t
  funext y
  show V c main_v8 (((cfg0.win 5).blk t).view.emb y) = V c main_v8 y
  refine congrArg (V c main_v8) (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

/-- Window 6 stages its whole array at every point. -/
theorem read6 (c : Dev nD) (t : Fin cfg0.N) : (iblk0 V c 6 t : Vec1 128) = V c main_arg4 := by
  obtain ⟨e0, e1, e2, e3, e4, e5, e6, e7, e8, e9, e10, e11, e12, e13, e14, e15, e16, e17⟩ := idx_facts t
  funext y
  show V c main_arg4 (((cfg0.win 6).blk t).view.emb y) = V c main_arg4 y
  refine congrArg (V c main_arg4) (funext fun a => Fin.ext ?_)
  match a with
  | ⟨0, _⟩ => show win0_6.index t (0 : Fin 1) * 128 + 1 * (y 0).val = (y 0).val; omega

/-- Window 7 stages its whole array at every point. -/
theorem read7 (c : Dev nD) (t : Fin cfg0.N) : (iblk0 V c 7 t : Mat 128 128) = V c main_arg5 := by
  obtain ⟨e0, e1, e2, e3, e4, e5, e6, e7, e8, e9, e10, e11, e12, e13, e14, e15, e16, e17⟩ := idx_facts t
  funext y
  show V c main_arg5 (((cfg0.win 7).blk t).view.emb y) = V c main_arg5 y
  refine congrArg (V c main_arg5) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8 stages its whole array at every point. -/
theorem read8 (c : Dev nD) (t : Fin cfg0.N) : (iblk0 V c 8 t : Vec1 128) = V c main_arg6 := by
  obtain ⟨e0, e1, e2, e3, e4, e5, e6, e7, e8, e9, e10, e11, e12, e13, e14, e15, e16, e17⟩ := idx_facts t
  funext y
  show V c main_arg6 (((cfg0.win 8).blk t).view.emb y) = V c main_arg6 y
  refine congrArg (V c main_arg6) (funext fun a => Fin.ext ?_)
  match a with
  | ⟨0, _⟩ => show win0_8.index t (0 : Fin 1) * 128 + 1 * (y 0).val = (y 0).val; omega

/-- The messages of a block of rows are the messages of those rows of the arrays: each row by itself. -/
theorem rows_transport {n N : ℕ} (hs' hd' : Mat n 128) (ea' : Mat n 32) (hs hd : Mat N 128) (ea : Mat N 32)
    (Ws Wd : Mat 128 128) (We : Mat 32 128) (b1 : Vec1 128) (W2 : Mat 128 128) (b2 : Vec1 128) (p : Fin n) (P : Fin N) (q : Fin 128)
    (h0 : ∀ l, hs' (ix2 p l) = hs (ix2 P l)) (h1 : ∀ l, hd' (ix2 p l) = hd (ix2 P l)) (h2 : ∀ l, ea' (ix2 p l) = ea (ix2 P l)) :
    msgRows hs' hd' ea' Ws Wd We b1 W2 b2 (ix2 p q) = msgRows hs hd ea Ws Wd We b1 W2 b2 (ix2 P q) := by
  rw [msgRows_apply, msgRows_apply, show rowOf hs' p = rowOf hs P from funext h0, show rowOf hd' p = rowOf hd P from funext h1,
    show rowOf ea' p = rowOf ea P from funext h2]

/-- The whole-array function the result ends at, of the arrays as the region finds them. -/
abbrev G (c : Dev nD) : Mat 640000 128 :=
  msgRows (n := 640000) (V c main_v4) (V c main_v5) (V c main_arg2) (V c main_v6) (V c main_v7) (V c main_v8)
    (V c main_arg4) (V c main_arg5) (V c main_arg6)

/-- What point `t` writes back is block `t` of `G`. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S5000x32) hz2, View.ld_unit_zero (S := S128x128) hz2,
    View.ld_unit_zero (S := S32x128) hz2, View.ld_unit_zero (S := S128) hz1]
  rw [EdgeBlock.pay_eq]
  funext j
  obtain ⟨p, q, rfl⟩ : ∃ (p : Fin 5000) (q : Fin 128), j = ix2 p q := ⟨j 0, j 1, eq_ix2 j⟩
  have ht := point_lt t
  have hb : 5000 * t.val + p.val < 640000 := by have := p.isLt; omega
  obtain ⟨e0, e1, e2, e3, e4, e5, e6, e7, e8, e9, e10, e11, e12, e13, e14, e15, e16, e17⟩ := idx_facts t
  have hemb : ((cfg0.win 9).blk t).view.emb (ix2 p q) = (ix2 ⟨5000 * t.val + p.val, hb⟩ q : S640000x128.Idx) :=
    funext fun a => Fin.ext (by
      match a with
      | ⟨0, _⟩ => show win0_9.index t (0 : Fin 2) * 5000 + 1 * p.val = 5000 * t.val + p.val; omega
      | ⟨1, _⟩ => show win0_9.index t (1 : Fin 2) * 128 + 1 * q.val = q.val; omega)
  show msgRows (n := 5000) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = G V c (((cfg0.win 9).blk t).view.emb (ix2 p q))
  rw [hemb, read3 V c t, read4 V c t, read5 V c t, read6 V c t, read7 V c t, read8 V c t]
  exact rows_transport _ _ _ _ _ _ _ _ _ _ _ _ p ⟨5000 * t.val + p.val, hb⟩ q
    (fun l => read0 V c t p l hb) (fun l => read1 V c t p l hb) (fun l => read2 V c t p l hb)

/-- An index of the array is in point `t`'s block iff each coordinate is in the block's range on its axis. -/
theorem mem_blk (t : Fin cfg0.N) (i : S640000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v9).slice (win0_9.rect t)).set ↔ _
  rw [View.set_slice_whole, Rect.mem_set_unit]
  exact Iff.rfl

/-- Every row is some point's: row `r` is in the block of point `r / 5000`. -/
theorem cover (i : S640000x128.Idx) : ∃ t : Fin cfg0.N, (cfg0.win 9).flush t = true ∧ i ∈ ((cfg0.win 9).blk t).view.set := by
  have hi0 : (i 0).val < 640000 := (i 0).isLt
  have hi1 : (i 1).val < 128 := (i 1).isLt
  have hN : (i 0).val / 5000 < cfg0.N := by rw [show cfg0.N = 128 from N_0]; omega
  refine ⟨⟨(i 0).val / 5000, hN⟩, flush0_9 _, ?_⟩
  rw [mem_blk]
  obtain ⟨-, -, -, -, -, -, -, -, -, -, -, -, -, -, -, -, q0, q1⟩ := idx_facts ⟨(i 0).val / 5000, hN⟩
  intro a
  match a with
  | ⟨0, _⟩ =>
    show win0_9.index ⟨(i 0).val / 5000, hN⟩ (0 : Fin 2) * 5000 ≤ (i 0).val ∧ (i 0).val < win0_9.index ⟨(i 0).val / 5000, hN⟩ (0 : Fin 2) * 5000 + 5000
    rw [q0]; show (i 0).val / 5000 * 5000 ≤ (i 0).val ∧ (i 0).val < (i 0).val / 5000 * 5000 + 5000; omega
  | ⟨1, _⟩ =>
    show win0_9.index ⟨(i 0).val / 5000, hN⟩ (1 : Fin 2) * 128 ≤ (i 1).val ∧ (i 1).val < win0_9.index ⟨(i 0).val / 5000, hN⟩ (1 : Fin 2) * 128 + 128
    rw [q1]; omega

/-- The result array after the region, whatever the buffers held at its entry (`V`). -/
theorem final (c : Dev nD) :
    (dat0 (F := Ideal) V c).arrAt 9 cfg0.N
      = msgRows (n := 640000) (V c main_v4) (V c main_v5) (V c main_arg2) (V c main_v6) (V c main_v7) (V c main_v8)
          (V c main_arg4) (V c main_arg5) (V c main_arg6) :=
  (dat0 (F := Ideal) V c).arrAt_eq_of_cover 9 (G V c) (fun t _ => flushed_eq V c t) cover

end Cert.Mpnn.EdgeArray

end
-- ==== Proof.NodeBlock.lean ====
/-
  The node kernel's block value. On a block of 5000 nodes the body computes, from the blocks of `h` and of the
  aggregated messages and from the weights, the updated and normalised rows of those 5000 nodes: each row by itself.
-/
import proofs.«428248_j7799660609777_1_alg».proof.Proof.Gen.KernelIdeal.Skeleton
import proofs.«428248_j7799660609777_1_alg».proof.Proof.Spec
import proofs.«428248_j7799660609777_1_alg».proof.Proof.LibRowOps

noncomputable section

namespace Cert.Mpnn.NodeBlock

open Idealize.ShloMosaic Idealize.ShloMosaic.ValueIdx Cert.Mpnn
open scoped BigOperators

open Cert.KernelIdeal Cert.KernelIdeal.Gen

variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pre-normalisation block at `(p, q)` is the pre-normalisation row of node `p` at `q`. -/
private theorem pre_apply (x0 x1 : Vec Ideal S5000x128 .f32) (x2 x3 : Vec Ideal S128x128 .f32) (x4 : Vec Ideal S128 .f32)
    (x5 : Vec Ideal S128x128 .f32) (x6 : Vec Ideal S128 .f32) (p : Fin 5000) (q : Fin 128) :
    k1_pay2 (F := Ideal) x0 x1 x2 x3 x4 x5 x6 (ix2 p q) = nodePre (rowOf x0 p) (rowOf x1 p) x2 x3 x4 x5 x6 q := by
  unfold k1_pay2
  rw [shapeCast_self x1, shapeCast_self x2, shapeCast_self x3]
  rw [addf_apply, LibRowOps.layer_apply dot_S5000x128_S128x128_S5000x128_1_0_0_1_n_n rfl _ _ _ _ _ p q
    (nodeHidden (rowOf x0 p) (rowOf x1 p) x2 x3 x4)]
  · rfl
  · intro k
    rw [truncf_apply, maximumf_apply, addf_apply, addf_apply,
      LibRowOps.prod_apply dot_S5000x128_S128x128_S5000x128_1_0_0_1_n_n rfl
        (truncf .bf16 x0 bitsLt_bf16_f32) _ p k (rowOf x0 p) (fun _ => rfl),
      LibRowOps.prod_apply dot_S5000x128_S128x128_S5000x128_1_0_0_1_n_n rfl
        (truncf .bf16 x1 bitsLt_bf16_f32) _ p k (rowOf x1 p) (fun _ => rfl),
      LibRowOps.rowBcast_apply]
    rfl

/-- The lane sum of a block kept as a column: at `(p, u)` it is the sum of row `p`. -/
private theorem rowSum_apply (v : FVec Ideal S5000x128 .f32) (p : Fin 5000) (u : Fin 1) :
    shapeCast S5000x1 (multiReduction (F := Ideal) .add [1] S5000 v 0x00000000#32 reduces_S5000x128_S5000 (.inl rfl) rfl)
        shapeCasts_S5000_S5000x1 (ix2 p u)
      = ∑ k : Fin 128, v (ix2 p k) := by
  rw [shapeCast_a_a1_apply]
  refine (Ideal.multiReduction_add_single v _ reduces_S5000x128_S5000 (.inl rfl) rfl (ix1 p)).trans ?_
  show ∑ k : Fin 128, v (reduces_S5000x128_S5000.lift (ix1 p) k) = _
  refine Finset.sum_congr rfl fun k _ => congrArg v ?_
  exact funext fun a => Fin.ext (by match a with | ⟨0, _⟩ => rfl | ⟨1, _⟩ => rfl)

/-- The column of row means at `(p, u)` is the mean of node `p`'s pre-normalisation row. -/
private theorem mean_apply (x0 x1 : Vec Ideal S5000x128 .f32) (x2 x3 : Vec Ideal S128x128 .f32) (x4 : Vec Ideal S128 .f32)
    (x5 : Vec Ideal S128x128 .f32) (x6 : Vec Ideal S128 .f32) (p : Fin 5000) (u : Fin 1) :
    k1_pay3 (F := Ideal) x0 x1 x2 x3 x4 x5 x6 (ix2 p u) = rowMean (nodePre (rowOf x0 p) (rowOf x1 p) x2 x3 x4 x5 x6) := by
  unfold k1_pay3
  rw [divf_apply, rowSum_apply]
  show Ideal.div (∑ k : Fin 128, k1_pay2 (F := Ideal) x0 x1 x2 x3 x4 x5 x6 (ix2 p k)) c128 = _
  unfold rowMean
  exact congrArg (Ideal.div · c128) (Finset.sum_congr rfl fun k _ => pre_apply x0 x1 x2 x3 x4 x5 x6 p k)

/-- The column of sums of squared deviations at `(p, u)`: the sum, over node `p`'s pre-normalisation row, of the squared
    distance to that row's mean. -/
private theorem sq_apply (x0 x1 : Vec Ideal S5000x128 .f32) (x2 x3 : Vec Ideal S128x128 .f32) (x4 : Vec Ideal S128 .f32)
    (x5 : Vec Ideal S128x128 .f32) (x6 : Vec Ideal S128 .f32) (p : Fin 5000) (u : Fin 1) :
    k1_pay4 (F := Ideal) x0 x1 x2 x3 x4 x5 x6 (ix2 p u)
      = ∑ k : Fin 128, (nodePre (rowOf x0 p) (rowOf x1 p) x2 x3 x4 x5 x6 k - rowMean (nodePre (rowOf x0 p) (rowOf x1 p) x2 x3 x4 x5 x6))
          * (nodePre (rowOf x0 p) (rowOf x1 p) x2 x3 x4 x5 x6 k - rowMean (nodePre (rowOf x0 p) (rowOf x1 p) x2 x3 x4 x5 x6)) := by
  unfold k1_pay4
  rw [rowSum_apply]
  refine Finset.sum_congr rfl fun k _ => ?_
  rw [mulf_apply, subf_apply, broadcastTo_a1_ab_apply, mean_apply, pre_apply]

/-- The body's stored value is `nodeRows` of its loads. The pre-normalisation row is the first payload; the row mean
    (a lane sum over `128`) the second; the sum of squared deviations the third; the divisor the fourth. -/
theorem pay_eq (x0 x1 : Vec Ideal S5000x128 .f32) (x2 x3 : Vec Ideal S128x128 .f32) (x4 : Vec Ideal S128 .f32)
    (x5 : Vec Ideal S128x128 .f32) (x6 x7 x8 : Vec Ideal S128 .f32) :
    k1_pay1 (F := Ideal) (k1_pay2 x0 x1 x2 x3 x4 x5 x6) (k1_pay3 x0 x1 x2 x3 x4 x5 x6) (k1_pay4 x0 x1 x2 x3 x4 x5 x6)
        (k1_pay5 (F := Ideal)) x7 x8
      = nodeRows (n := 5000) x0 x1 x2 x3 x4 x5 x6 x7 x8 := by
  funext i
  obtain ⟨p, q, rfl⟩ : ∃ (p : Fin 5000) (q : Fin 128), i = ix2 p q := ⟨i 0, i 1, eq_ix2 i⟩
  rw [nodeRows_apply]
  unfold k1_pay1 layerNorm rowVar
  rw [addf_apply, mulf_apply, mulf_apply, subf_apply, LibRowOps.rowBcast_apply, LibRowOps.rowBcast_apply,
    broadcastTo_a1_ab_apply, broadcastTo_a1_ab_apply, pre_apply, mean_apply]
  -- the scale: the variance column plus epsilon, under the reciprocal square root, entry by entry
  have hr : rsqrt (addf (divf (k1_pay4 (F := Ideal) x0 x1 x2 x3 x4 x5 x6) (k1_pay5 (F := Ideal)))
        (broadcast S5000x1 (FloatOps.ofBits (F := Ideal) .f32 0x3727C5AC#32))) (ix2 p (0 : Fin 1))
      = Ideal.rsqrt (Ideal.div (k1_pay4 (F := Ideal) x0 x1 x2 x3 x4 x5 x6 (ix2 p (0 : Fin 1))) c128 + epsF) := rfl
  rw [hr, sq_apply]

end Cert.Mpnn.NodeBlock

end
-- ==== Proof.NodeArray.lean ====
/-
  From blocks to the array, node kernel. The grid has 10 points; point `t` stages rows `5000 t … 5000 t + 4999` of `h`
  and of the aggregated messages, the weights whole, and writes back the same rows of the result. Every row is some
  point's, and what a point writes is the update of its own rows, so the array ends as the update of all 50000 nodes.
-/
import proofs.«428248_j7799660609777_1_alg».proof.Proof.Gen.KernelIdeal.Frame
import proofs.«428248_j7799660609777_1_alg».proof.Proof.NodeBlock
import Idealize.ShloMosaic.Lib.Pipeline.Value

set_option maxRecDepth 16384

noncomputable section

namespace Cert.Mpnn.NodeArray

open Idealize.ShloMosaic Idealize.ShloMosaic.TcCoe Idealize.ShloMosaic.ValueIdx Idealize.SL.Sem Cert.Mpnn
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 10 grid points: `h`, the aggregated messages and the result move one
    block of rows per point, the weights, biases, scale and shift stay at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = t.val
    ∧ win1_9.index t (1 : Fin 2) = 0 :=
  (by decide +kernel : ∀ t : Fin grid1.N, _)

theorem point_lt (t : Fin cfg1.N) : t.val < 10 := lt_of_lt_of_eq t.isLt N_1

/-- The block of `h` at point `t` is rows `5000 t … 5000 t + 4999` of `h`. -/
theorem read0 (c : Dev nD) (t : Fin cfg1.N) (p : Fin 5000) (l : Fin 128) (hb : 5000 * t.val + p.val < 50000) :
    (iblk1 V c 0 t : Mat 5000 128) (ix2 p l) = (V c main_arg0 : Mat 50000 128) (ix2 ⟨5000 * t.val + p.val, hb⟩ l) := by
  obtain ⟨e0, e1, -⟩ := idx_facts t
  show V c main_arg0 (((cfg1.win 0).blk t).view.emb (ix2 p l)) = _
  refine congrArg (V c main_arg0) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * l.val = l.val; omega

/-- The block of aggregated messages at point `t` is the same rows of that array. -/
theorem read1 (c : Dev nD) (t : Fin cfg1.N) (p : Fin 5000) (l : Fin 128) (hb : 5000 * t.val + p.val < 50000) :
    (iblk1 V c 1 t : Mat 5000 128) (ix2 p l) = (V c main_v12 : Mat 50000 128) (ix2 ⟨5000 * t.val + p.val, hb⟩ l) := by
  obtain ⟨-, -, e2, e3, -⟩ := idx_facts t
  show V c main_v12 (((cfg1.win 1).blk t).view.emb (ix2 p l)) = _
  refine congrArg (V c main_v12) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * l.val = l.val; omega

/-- A square weight staged whole: its block at any point is the array. -/
theorem read2 (c : Dev nD) (t : Fin cfg1.N) : (iblk1 V c 2 t : Mat 128 128) = V c main_v13 := by
  obtain ⟨-, -, -, -, e4, e5, -⟩ := idx_facts t
  funext y
  show V c main_v13 (((cfg1.win 2).blk t).view.emb y) = V c main_v13 y
  refine congrArg (V c main_v13) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem read3 (c : Dev nD) (t : Fin cfg1.N) : (iblk1 V c 3 t : Mat 128 128) = V c main_v14 := by
  obtain ⟨-, -, -, -, -, -, e6, e7, -⟩ := idx_facts t
  funext y
  show V c main_v14 (((cfg1.win 3).blk t).view.emb y) = V c main_v14 y
  refine congrArg (V c main_v14) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- A bias row staged whole. -/
theorem read4 (c : Dev nD) (t : Fin cfg1.N) : (iblk1 V c 4 t : Vec1 128) = V c main_arg8 := by
  obtain ⟨-, -, -, -, -, -, -, -, e8, -⟩ := idx_facts t
  funext y
  show V c main_arg8 (((cfg1.win 4).blk t).view.emb y) = V c main_arg8 y
  refine congrArg (V c main_arg8) (funext fun a => Fin.ext ?_)
  match a with
  | ⟨0, _⟩ => show win1_4.index t (0 : Fin 1) * 128 + 1 * (y 0).val = (y 0).val; omega

theorem read5 (c : Dev nD) (t : Fin cfg1.N) : (iblk1 V c 5 t : Mat 128 128) = V c main_arg9 := by
  obtain ⟨-, -, -, -, -, -, -, -, -, e9, e10, -⟩ := idx_facts t
  funext y
  show V c main_arg9 (((cfg1.win 5).blk t).view.emb y) = V c main_arg9 y
  refine congrArg (V c main_arg9) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem read6 (c : Dev nD) (t : Fin cfg1.N) : (iblk1 V c 6 t : Vec1 128) = V c main_arg10 := by
  obtain ⟨-, -, -, -, -, -, -, -, -, -, -, e11, -⟩ := idx_facts t
  funext y
  show V c main_arg10 (((cfg1.win 6).blk t).view.emb y) = V c main_arg10 y
  refine congrArg (V c main_arg10) (funext fun a => Fin.ext ?_)
  match a with
  | ⟨0, _⟩ => show win1_6.index t (0 : Fin 1) * 128 + 1 * (y 0).val = (y 0).val; omega

/-- The scale row staged whole. -/
theorem read7 (c : Dev nD) (t : Fin cfg1.N) : (iblk1 V c 7 t : Vec1 128) = V c main_arg11 := by
  obtain ⟨-, -, -, -, -, -, -, -, -, -, -, -, e12, -⟩ := idx_facts t
  funext y
  show V c main_arg11 (((cfg1.win 7).blk t).view.emb y) = V c main_arg11 y
  refine congrArg (V c main_arg11) (funext fun a => Fin.ext ?_)
  match a with
  | ⟨0, _⟩ => show win1_7.index t (0 : Fin 1) * 128 + 1 * (y 0).val = (y 0).val; omega

/-- The shift row staged whole. -/
theorem read8 (c : Dev nD) (t : Fin cfg1.N) : (iblk1 V c 8 t : Vec1 128) = V c main_arg12 := by
  obtain ⟨-, -, -, -, -, -, -, -, -, -, -, -, -, e13, -⟩ := idx_facts t
  funext y
  show V c main_arg12 (((cfg1.win 8).blk t).view.emb y) = V c main_arg12 y
  refine congrArg (V c main_arg12) (funext fun a => Fin.ext ?_)
  match a with
  | ⟨0, _⟩ => show win1_8.index t (0 : Fin 1) * 128 + 1 * (y 0).val = (y 0).val; omega

/-- The update of a block of rows is the update of those rows of the arrays: each row by itself. -/
theorem rows_transport {n N : ℕ} (h' a' : Mat n 128) (h a : Mat N 128) (Wh Wa : Mat 128 128) (b1 : Vec1 128)
    (W2 : Mat 128 128) (b2 γ β : Vec1 128) (p : Fin n) (P : Fin N) (q : Fin 128)
    (h0 : ∀ l, h' (ix2 p l) = h (ix2 P l)) (h1 : ∀ l, a' (ix2 p l) = a (ix2 P l)) :
    nodeRows h' a' Wh Wa b1 W2 b2 γ β (ix2 p q) = nodeRows h a Wh Wa b1 W2 b2 γ β (ix2 P q) := by
  rw [nodeRows_apply, nodeRows_apply, show rowOf h' p = rowOf h P from funext h0, show rowOf a' p = rowOf a P from funext h1]

/-- The whole-array function the result ends at, of the arrays as the region finds them. -/
abbrev G (c : Dev nD) : Mat 50000 128 :=
  nodeRows (n := 50000) (V c main_arg0) (V c main_v12) (V c main_v13) (V c main_v14) (V c main_arg8)
    (V c main_arg9) (V c main_arg10) (V c main_arg11) (V c main_arg12)

/-- What point `t` writes back is block `t` of `G`. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1]
  rw [NodeBlock.pay_eq]
  funext j
  obtain ⟨p, q, rfl⟩ : ∃ (p : Fin 5000) (q : Fin 128), j = ix2 p q := ⟨j 0, j 1, eq_ix2 j⟩
  have ht := point_lt t
  have hb : 5000 * t.val + p.val < 50000 := by have := p.isLt; omega
  obtain ⟨-, -, -, -, -, -, -, -, -, -, -, -, -, -, e14, e15⟩ := idx_facts t
  have hemb : ((cfg1.win 9).blk t).view.emb (ix2 p q) = (ix2 ⟨5000 * t.val + p.val, hb⟩ q : S50000x128.Idx) :=
    funext fun a => Fin.ext (by
      match a with
      | ⟨0, _⟩ => show win1_9.index t (0 : Fin 2) * 5000 + 1 * p.val = 5000 * t.val + p.val; omega
      | ⟨1, _⟩ => show win1_9.index t (1 : Fin 2) * 128 + 1 * q.val = q.val; omega)
  show nodeRows (n := 5000) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q) = G V c (((cfg1.win 9).blk t).view.emb (ix2 p q))
  rw [hemb, read2 V c t, read3 V c t, read4 V c t, read5 V c t, read6 V c t, read7 V c t, read8 V c t]
  exact rows_transport _ _ _ _ _ _ _ _ _ _ _ p ⟨5000 * t.val + p.val, hb⟩ q
    (fun l => read0 V c t p l hb) (fun l => read1 V c t p l hb)

/-- An index of the array is in point `t`'s block iff each coordinate is in the block's range on its axis. -/
theorem mem_blk (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v15).slice (win1_9.rect t)).set ↔ _
  rw [View.set_slice_whole, Rect.mem_set_unit]
  exact Iff.rfl

/-- Every row is some point's: row `r` is in the block of point `r / 5000`. -/
theorem cover (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_9 _, ?_⟩
  rw [mem_blk]
  obtain ⟨-, -, -, -, -, -, -, -, -, -, -, -, -, -, q0, q1⟩ := idx_facts ⟨(i 0).val / 5000, hN⟩
  intro a
  match a with
  | ⟨0, _⟩ =>
    show win1_9.index ⟨(i 0).val / 5000, hN⟩ (0 : Fin 2) * 5000 ≤ (i 0).val ∧ (i 0).val < win1_9.index ⟨(i 0).val / 5000, hN⟩ (0 : Fin 2) * 5000 + 5000
    rw [q0]; show (i 0).val / 5000 * 5000 ≤ (i 0).val ∧ (i 0).val < (i 0).val / 5000 * 5000 + 5000; omega
  | ⟨1, _⟩ =>
    show win1_9.index ⟨(i 0).val / 5000, hN⟩ (1 : Fin 2) * 128 ≤ (i 1).val ∧ (i 1).val < win1_9.index ⟨(i 0).val / 5000, hN⟩ (1 : Fin 2) * 128 + 128
    rw [q1]; omega

/-- The result array after the region, whatever the buffers held at its entry (`V`). -/
theorem final (c : Dev nD) :
    (dat1 (F := Ideal) V c).arrAt 9 cfg1.N
      = nodeRows (n := 50000) (V c main_arg0) (V c main_v12) (V c main_v13) (V c main_v14) (V c main_arg8)
          (V c main_arg9) (V c main_arg10) (V c main_arg11) (V c main_arg12) :=
  (dat1 (F := Ideal) V c).arrAt_eq_of_cover 9 (G V c) (fun t _ => flushed_eq V c t) cover

end Cert.Mpnn.NodeArray

end
-- ==== Proof.Layer.lean ====
/-
  One message-passing layer as ONE function of the thirteen argument arrays.

  `srcIdx`, `dstIdx`: the two rows of the edge list. `wrapCol`: an index column with negative entries moved up by
  the table's length (`i < 0 ↦ i + 50000`), as both programs do before they gather. `takeRows`: the rows of `h` an index
  column names. `agg`: every edge's message added into its destination node's row. `out`: the updated, normalised
  node rows. The two matrix products over concatenated rows are written over the row blocks of their weights (Spec).
-/
import proofs.«428248_j7799660609777_1_alg».proof.KernelIdeal
import proofs.«428248_j7799660609777_1_alg».proof.Proof.Spec

noncomputable section

namespace Cert.Mpnn.Layer

open Idealize.ShloMosaic Idealize.ShloMosaic.ValueIdx Cert.Mpnn
open Cert.KernelIdeal Cert.KernelIdeal.Facts₀

variable [Cert.KernelIdeal.Facts]

/-- Row 0 of the edge list: each edge's source node. -/
def srcIdx (ei : IVec S2x640000 32) : IVec S640000 32 :=
  shapeCast S640000 (extractStridedSlice S1x640000 ![0, 0] ei slices_S2x640000_S1x640000_0_0) shapeCasts_S1x640000_S640000

/-- Row 1 of the edge list: each edge's destination node. -/
def dstIdx (ei : IVec S2x640000 32) : IVec S640000 32 :=
  shapeCast S640000 (extractStridedSlice S1x640000 ![1, 0] ei slices_S2x640000_S1x640000_1_0) shapeCasts_S1x640000_S640000

/-- Negative entries moved up by the table's length, as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- The rows of `h` an index column names (the start index read signed and clamped into the table). -/
def takeRows (h : Mat 50000 128) (idx : IVec S640000 32) : Mat 640000 128 :=
  Host.gather gather_S50000x128_S640000x1_S640000x128_1_0_n_n_0_1_1128 h (wrapCol idx)

/-- Every edge's message. -/
def msgs (h : Mat 50000 128) (ei : IVec S2x640000 32) (ea : Mat 640000 32) (ew1 : Mat 288 128) (eb1 : Vec1 128)
    (ew2 : Mat 128 128) (eb2 : Vec1 128) : Mat 640000 128 :=
  msgRows (takeRows h (srcIdx ei)) (takeRows h (dstIdx ei)) ea
    (extractStridedSlice S128x128 ![0, 0] ew1 slices_S288x128_S128x128_0_0)
    (extractStridedSlice S128x128 ![128, 0] ew1 slices_S288x128_S128x128_128_0)
    (extractStridedSlice S32x128 ![256, 0] ew1 slices_S288x128_S32x128_256_0) eb1 ew2 eb2

/-- The messages added into their destination rows, from zero. -/
def agg (h : Mat 50000 128) (ei : IVec S2x640000 32) (ea : Mat 640000 32) (ew1 : Mat 288 128) (eb1 : Vec1 128)
    (ew2 : Mat 128 128) (eb2 : Vec1 128) : Mat 50000 128 :=
  Host.scatterAdd (F := Ideal) (φ := .f32) scatter_S50000x128_S640000x1_S640000x128_1_0_0_1
    (broadcastInDim S50000x128 ![] bcast_S_S50000x128 (constant (F := Ideal) S_ .f32 0x00000000#32))
    (broadcastInDim S640000x1 ![0] bcast_S640000_S640000x1_0 (dstIdx ei))
    (msgs h ei ea ew1 eb1 ew2 eb2)

/-- The layer's result. -/
def out (h : Mat 50000 128) (ei : IVec S2x640000 32) (ea : Mat 640000 32) (ew1 : Mat 288 128) (eb1 : Vec1 128)
    (ew2 : Mat 128 128) (eb2 : Vec1 128) (nw1 : Mat 256 128) (nb1 : Vec1 128) (nw2 : Mat 128 128) (nb2 γ β : Vec1 128) :
    Mat 50000 128 :=
  nodeRows h (agg h ei ea ew1 eb1 ew2 eb2)
    (extractStridedSlice S128x128 ![0, 0] nw1 slices_S256x128_S128x128_0_0)
    (extractStridedSlice S128x128 ![128, 0] nw1 slices_S256x128_S128x128_128_0) nb1 nw2 nb2 γ β

end Cert.Mpnn.Layer

end
-- ==== Proof.Take.lean ====
/-
  The blocked program gathers rows with a range test: after moving negative indices up by the table's length it
  tests `0 ≤ i ≤ 49999`, gathers, and keeps the gathered row where the test holds and a fill value where it fails.
  For indices in `[-50000, 50000)` the moved index is in `[0, 49999]`, the test holds in every row, and the result is
  the plain gather.
-/
import proofs.«428248_j7799660609777_1_alg».proof.Proof.Layer
import Idealize.ShloMosaic.Lib.ReduceAll
import Idealize.ShloMosaic.Lib.StableHlo.Predicate

noncomputable section

namespace Cert.Mpnn.Take

open Idealize.ShloMosaic Idealize.ShloMosaic.ValueIdx Cert.Mpnn Cert.Mpnn.Layer
open Cert.KernelIdeal Cert.KernelIdeal.Facts₀

variable [Cert.KernelIdeal.Facts]

/-- A signed word that is a valid row index of a table of 50000 rows, counting from the end when negative. -/
abbrev InRange (w : BitVec 32) : Prop := (-50000 : ℤ) ≤ w.toInt ∧ w.toInt < 50000

/-- The gather with its range test and fill, as the blocked program spells it. -/
def takeFill (h : Mat 50000 128) (idx : IVec S640000 32) : Mat 640000 128 :=
  select
    (broadcastInDim S640000x128 ![0] bcast_S640000_S640000x128_0
      (Host.reduce IntOp.andi
        (andi (cmpi .sge (wrapCol idx) (broadcastInDim S640000x1 ![] bcast_S_S640000x1 (constantI S_ 32 0#32)))
          (cmpi .sle (wrapCol idx)
            (broadcastInDim S640000x1 ![0, 1] bcast_S1x1_S640000x1_0_1
              (broadcastInDim S1x1 ![1] bcast_S1_S1x1_1 (constantI S1 32 49999#32)))))
        (constantI S_ 1 1#1) reducesTo_S640000x1_S640000_d1 h_S_))
    (Host.gather gather_S50000x128_S640000x1_S640000x128_1_0_n_n_0_1_1128 h (wrapCol idx))
    (broadcastInDim S640000x128 ![] bcast_S_S640000x128 (constant (F := Ideal) S_ .f32 0x7FC00000#32))

/-- A left fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l (fun n hn => h n (List.mem_cons_of_mem _ hn))

/-- An index in `[-50000, 50000)`, moved up by 50000 when negative, lies in `[0, 49999]`: a negative `v` has
    `0 ≤ v + 50000 < 50000`, far inside the signed range, so the 32-bit sum is the integer sum. -/
private theorem wrapped_test (v : BitVec 32) (hv : InRange v) :
    IntOp.andi
      (IntOp.cmpi .sge (Scalar.select (IntOp.cmpi .slt v 0#32) (IntOp.addi v 50000#32) v) 0#32)
      (IntOp.cmpi .sle (Scalar.select (IntOp.cmpi .slt v 0#32) (IntOp.addi v 50000#32) v) 49999#32) = 1#1 := by
  obtain ⟨h1, h2⟩ := hv
  have e0 : (0#32).toInt = 0 := by decide
  have e1 : (49999#32).toInt = 49999 := by decide
  have e2 : (50000#32).toInt = 50000 := by decide
  rw [IntOp.andi_eq_one, IntOp.cmpi_sge, IntOp.cmpi_sle, e0, e1]
  by_cases hneg : IntOp.cmpi .slt v 0#32 = 1#1
  · have hlt : v.toInt < 0 := by rw [IntOp.cmpi_slt, e0] at hneg; exact hneg
    have hs : Scalar.select (IntOp.cmpi .slt v 0#32) (IntOp.addi v 50000#32) v = v + 50000#32 := by
      rw [hneg]; exact select_one _ _
    rw [hs, BitVec.toInt_add, e2, Int.bmod_def]
    constructor <;> omega
  · have hge : ¬ v.toInt < 0 := by rw [IntOp.cmpi_slt, e0] at hneg; exact hneg
    have hs : Scalar.select (IntOp.cmpi .slt v 0#32) (IntOp.addi v 50000#32) v = v := if_neg hneg
    rw [hs]
    constructor <;> omega

/-- A select at an index where the condition's bit is 1 is its first operand there. -/
private theorem select_of_one {α : Type} {s : Shape} (c : IVec s 1) (a b : s.Idx → α) (i : s.Idx) (hc : c i = 1#1) :
    select c a b i = a i := by
  rw [select_apply, hc]; exact select_one _ _

/-- In range, the test holds everywhere and the fill is never taken. -/
theorem takeFill_eq (h : Mat 50000 128) (idx : IVec S640000 32) (hr : ∀ e : S640000.Idx, InRange (idx e)) :
    takeFill h idx = takeRows h idx := by
  funext i
  unfold takeFill takeRows
  -- the mask at `i` is the row's `and`-reduction of the test; every word it folds is 1
  refine select_of_one _ _ _ i ?_
  show Host.reduce IntOp.andi _ _ _ _ _ = 1#1
  rw [Host.reduce_eq_foldl]
  refine foldl_andi_one _ _ (fun k _ => ?_)
  exact wrapped_test _ (hr _)

/-- Each source index is an entry of the edge list. -/
theorem srcIdx_range (ei : IVec S2x640000 32) (hr : ∀ i : S2x640000.Idx, InRange (ei i)) (e : S640000.Idx) :
    InRange (srcIdx ei e) := hr _

/-- Each destination index is an entry of the edge list. -/
theorem dstIdx_range (ei : IVec S2x640000 32) (hr : ∀ i : S2x640000.Idx, InRange (ei i)) (e : S640000.Idx) :
    InRange (dstIdx ei e) := hr _

end Cert.Mpnn.Take

end
-- ==== Proof.KernelValue.lean ====
/-
  The blocked program's result as a function of its arguments.

  Between the launch and the return the program's buffers pass seven boundaries: four stretches of host operations
  (the two rows of the edge list; the gather of the source rows; the gather of the destination rows; the three row
  blocks of the edge perceptron's first weight), the edge kernel, one more stretch (the scatter-add of the messages and
  the two row blocks of the node perceptron's first weight), the node kernel. Each stretch is read here over an arbitrary
  starting valuation: what it leaves in the buffers it writes, and that it leaves every other buffer alone. Composing
  them gives what each kernel finds in its operands, and with the two kernels' array values the result buffer's final
  contents: `Layer.out` of the thirteen arguments, provided the edge list's entries are valid row indices (then both
  range tests hold everywhere and both gathers are plain).
-/
import proofs.«428248_j7799660609777_1_alg».proof.Proof.KernelRun
import proofs.«428248_j7799660609777_1_alg».proof.Proof.EdgeArray
import proofs.«428248_j7799660609777_1_alg».proof.Proof.NodeArray
import proofs.«428248_j7799660609777_1_alg».proof.Proof.Take
import Idealize.ShloMosaic.Lib.StableHlo.Run

set_option maxRecDepth 16384

noncomputable section

namespace Cert.Mpnn.KernelValue

open Idealize.ShloMosaic Idealize.ShloMosaic.TcCoe Idealize.ShloMosaic.ValueIdx Idealize.SL.Sem Idealize.ShloMosaic.StableHlo
open Cert.Mpnn Cert.Mpnn.Layer
open Cert.KernelIdeal Cert.KernelIdeal.Gen Cert.KernelIdeal.Facts₀

variable (m : (ℓ : Loc nD τ sig) → Buf (Elt Ideal) ℓ) (ρ : Dev nD → PrngReg)

variable (X : Valuation τ sig (Elt Ideal))

/-- Running two lists of operations in a row is running the second from where the first ends. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => exact ih _

/-! ## The stretches, one at a time -/

/-- The references the first stretch writes. -/
abbrev wr0 : List (Ref sig .tc) := [main_v0, main_v1, main_v2, main_v3]

theorem s0_writes : (hostOps0 (F := Ideal)).Forall fun op => op.writes ⊆ (wr0.map (Proc.devRef (τ := τ) .tc)).toFinset := by
  simp only [hostOps0, wr0, List.Forall, StableHlo.unary_writes, StableHlo.reshape_writes,
    List.map, List.toFinset_cons, List.toFinset_nil, Finset.singleton_subset_iff, Finset.mem_insert, Finset.mem_singleton]
  simp

theorem s0_keeps (r : Ref sig .tc) (hr : r ∉ wr0) : StableHlo.after hostOps0 X (Proc.devRef .tc r) = X (Proc.devRef .tc r) :=
  StableHlo.after_of_writes_sub _ _ s0_writes hr

/-- The first stretch cuts the two rows out of the edge list. -/
theorem s0_v1 : StableHlo.after hostOps0 X (Proc.devRef .tc main_v1) = srcIdx (X (Proc.devRef .tc main_arg1)) := by
  after_results
  rfl
theorem s0_v3 : StableHlo.after hostOps0 X (Proc.devRef .tc main_v3) = dstIdx (X (Proc.devRef .tc main_arg1)) := by
  after_results
  rfl

/-- The references this gather's stretch writes. -/
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]

theorem s1_writes : (hostOps0_1 (F := Ideal)).Forall fun op => op.writes ⊆ (wr1.map (Proc.devRef (τ := τ) .tc)).toFinset := by
  simp only [hostOps0_1, wr1, List.Forall, StableHlo.nullary_writes, StableHlo.unary_writes, StableHlo.binary_writes, StableHlo.ternary_writes,
    List.map, List.toFinset_cons, List.toFinset_nil, Finset.singleton_subset_iff, Finset.mem_insert, Finset.mem_singleton]
  simp

/-- A buffer outside that list keeps its contents through the stretch. -/
theorem s1_keeps (r : Ref sig .tc) (hr : r ∉ wr1) : StableHlo.after hostOps0_1 X (Proc.devRef .tc r) = X (Proc.devRef .tc r) :=
  StableHlo.after_of_writes_sub _ _ s1_writes hr

/-- The stretch is three pieces in a row: the index column (8 operations), the row mask (10), the gather, fill and select (5). -/
theorem s1_split : (hostOps0_1 (F := Ideal)) = hostOps0_1.take 8 ++ ((hostOps0_1.drop 8).take 10 ++ hostOps0_1.drop 18) := rfl

/-- First piece: the index column, negatives moved up by the table's length. -/
theorem s1A_v5 : StableHlo.after ((hostOps0_1 (F := Ideal)).take 8) X (Proc.devRef .tc main_call0_v5) = wrapCol (X (Proc.devRef .tc main_v1)) := by
  simp only [hostOps0_1, List.take_succ_cons, List.take_zero]
  after_results
  rfl
theorem s1A_arg0 : StableHlo.after ((hostOps0_1 (F := Ideal)).take 8) X (Proc.devRef .tc main_arg0) = X (Proc.devRef .tc main_arg0) := by
  simp only [hostOps0_1, List.take_succ_cons, List.take_zero]
  after_results

/-- Second piece: the row mask, the `and` over a row's one column of `0 ≤ i` and `i ≤ 49999`. -/
theorem s1B_v12 : StableHlo.after (((hostOps0_1 (F := Ideal)).drop 8).take 10) X (Proc.devRef .tc main_call0_v12)
    = Host.reduce IntOp.andi
        (andi (cmpi .sge (X (Proc.devRef .tc main_call0_v5)) (broadcastInDim S640000x1 ![] Facts₀.bcast_S_S640000x1 (constantI S_ 32 0#32)))
          (cmpi .sle (X (Proc.devRef .tc main_call0_v5))
            (broadcastInDim S640000x1 ![0, 1] Facts₀.bcast_S1x1_S640000x1_0_1
              (broadcastInDim S1x1 ![1] Facts₀.bcast_S1_S1x1_1 (constantI S1 32 49999#32)))))
        (constantI S_ 1 1#1) Facts₀.reducesTo_S640000x1_S640000_d1 Facts₀.h_S_ := by
  simp only [hostOps0_1, List.drop_succ_cons, List.drop_zero, List.take_succ_cons, List.take_zero]
  after_results
  simp only [TRef.toBuf, TRef.ofBuf, cast_eq]
theorem s1B_v5 : StableHlo.after (((hostOps0_1 (F := Ideal)).drop 8).take 10) X (Proc.devRef .tc main_call0_v5) = X (Proc.devRef .tc main_call0_v5) := by
  simp only [hostOps0_1, List.drop_succ_cons, List.drop_zero, List.take_succ_cons, List.take_zero]
  after_results
theorem s1B_arg0 : StableHlo.after (((hostOps0_1 (F := Ideal)).drop 8).take 10) X (Proc.devRef .tc main_arg0) = X (Proc.devRef .tc main_arg0) := by
  simp only [hostOps0_1, List.drop_succ_cons, List.drop_zero, List.take_succ_cons, List.take_zero]
  after_results

/-- Third piece: the gather, the mask along the columns, the fill, the select. -/
theorem s1C_v4 : StableHlo.after ((hostOps0_1 (F := Ideal)).drop 18) X (Proc.devRef .tc main_v4)
    = select (broadcastInDim S640000x128 ![0] Facts₀.bcast_S640000_S640000x128_0 (X (Proc.devRef .tc main_call0_v12)))
        (Host.gather gather_S50000x128_S640000x1_S640000x128_1_0_n_n_0_1_1128 (X (Proc.devRef .tc main_arg0)) (X (Proc.devRef .tc main_call0_v5)))
        (broadcastInDim S640000x128 ![] Facts₀.bcast_S_S640000x128 (constant (F := Ideal) S_ .f32 0x7FC00000#32)) := by
  simp only [hostOps0_1, List.drop_succ_cons, List.drop_zero]
  after_results
  rfl

/-- The stretch leaves in its result buffer the rows of `h` its index row names, with the range test and the fill. -/
theorem s1_v4 : StableHlo.after hostOps0_1 X (Proc.devRef .tc main_v4)
    = Take.takeFill (X (Proc.devRef .tc main_arg0)) (X (Proc.devRef .tc main_v1)) := by
  rw [s1_split, after_append, after_append, s1C_v4, s1B_v12, s1B_v5, s1B_arg0, s1A_v5, s1A_arg0]
  unfold Take.takeFill
  rfl

/-- The references this gather's stretch writes. -/
abbrev wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

theorem s2_writes : (hostOps0_2 (F := Ideal)).Forall fun op => op.writes ⊆ (wr2.map (Proc.devRef (τ := τ) .tc)).toFinset := by
  simp only [hostOps0_2, wr2, List.Forall, StableHlo.nullary_writes, StableHlo.unary_writes, StableHlo.binary_writes, StableHlo.ternary_writes,
    List.map, List.toFinset_cons, List.toFinset_nil, Finset.singleton_subset_iff, Finset.mem_insert, Finset.mem_singleton]
  simp

/-- A buffer outside that list keeps its contents through the stretch. -/
theorem s2_keeps (r : Ref sig .tc) (hr : r ∉ wr2) : StableHlo.after hostOps0_2 X (Proc.devRef .tc r) = X (Proc.devRef .tc r) :=
  StableHlo.after_of_writes_sub _ _ s2_writes hr

/-- The stretch is three pieces in a row: the index column (8 operations), the row mask (10), the gather, fill and select (5). -/
theorem s2_split : (hostOps0_2 (F := Ideal)) = hostOps0_2.take 8 ++ ((hostOps0_2.drop 8).take 10 ++ hostOps0_2.drop 18) := rfl

/-- First piece: the index column, negatives moved up by the table's length. -/
theorem s2A_v5 : StableHlo.after ((hostOps0_2 (F := Ideal)).take 8) X (Proc.devRef .tc main_call1_v5) = wrapCol (X (Proc.devRef .tc main_v3)) := by
  simp only [hostOps0_2, List.take_succ_cons, List.take_zero]
  after_results
  rfl
theorem s2A_arg0 : StableHlo.after ((hostOps0_2 (F := Ideal)).take 8) X (Proc.devRef .tc main_arg0) = X (Proc.devRef .tc main_arg0) := by
  simp only [hostOps0_2, List.take_succ_cons, List.take_zero]
  after_results

/-- Second piece: the row mask, the `and` over a row's one column of `0 ≤ i` and `i ≤ 49999`. -/
theorem s2B_v12 : StableHlo.after (((hostOps0_2 (F := Ideal)).drop 8).take 10) X (Proc.devRef .tc main_call1_v12)
    = Host.reduce IntOp.andi
        (andi (cmpi .sge (X (Proc.devRef .tc main_call1_v5)) (broadcastInDim S640000x1 ![] Facts₀.bcast_S_S640000x1 (constantI S_ 32 0#32)))
          (cmpi .sle (X (Proc.devRef .tc main_call1_v5))
            (broadcastInDim S640000x1 ![0, 1] Facts₀.bcast_S1x1_S640000x1_0_1
              (broadcastInDim S1x1 ![1] Facts₀.bcast_S1_S1x1_1 (constantI S1 32 49999#32)))))
        (constantI S_ 1 1#1) Facts₀.reducesTo_S640000x1_S640000_d1 Facts₀.h_S_ := by
  simp only [hostOps0_2, List.drop_succ_cons, List.drop_zero, List.take_succ_cons, List.take_zero]
  after_results
  simp only [TRef.toBuf, TRef.ofBuf, cast_eq]
theorem s2B_v5 : StableHlo.after (((hostOps0_2 (F := Ideal)).drop 8).take 10) X (Proc.devRef .tc main_call1_v5) = X (Proc.devRef .tc main_call1_v5) := by
  simp only [hostOps0_2, List.drop_succ_cons, List.drop_zero, List.take_succ_cons, List.take_zero]
  after_results
theorem s2B_arg0 : StableHlo.after (((hostOps0_2 (F := Ideal)).drop 8).take 10) X (Proc.devRef .tc main_arg0) = X (Proc.devRef .tc main_arg0) := by
  simp only [hostOps0_2, List.drop_succ_cons, List.drop_zero, List.take_succ_cons, List.take_zero]
  after_results

/-- Third piece: the gather, the mask along the columns, the fill, the select. -/
theorem s2C_v5 : StableHlo.after ((hostOps0_2 (F := Ideal)).drop 18) X (Proc.devRef .tc main_v5)
    = select (broadcastInDim S640000x128 ![0] Facts₀.bcast_S640000_S640000x128_0 (X (Proc.devRef .tc main_call1_v12)))
        (Host.gather gather_S50000x128_S640000x1_S640000x128_1_0_n_n_0_1_1128 (X (Proc.devRef .tc main_arg0)) (X (Proc.devRef .tc main_call1_v5)))
        (broadcastInDim S640000x128 ![] Facts₀.bcast_S_S640000x128 (constant (F := Ideal) S_ .f32 0x7FC00000#32)) := by
  simp only [hostOps0_2, List.drop_succ_cons, List.drop_zero]
  after_results
  rfl

/-- The stretch leaves in its result buffer the rows of `h` its index row names, with the range test and the fill. -/
theorem s2_v5 : StableHlo.after hostOps0_2 X (Proc.devRef .tc main_v5)
    = Take.takeFill (X (Proc.devRef .tc main_arg0)) (X (Proc.devRef .tc main_v3)) := by
  rw [s2_split, after_append, after_append, s2C_v5, s2B_v12, s2B_v5, s2B_arg0, s2A_v5, s2A_arg0]
  unfold Take.takeFill
  rfl

/-- The references the fourth stretch writes: the three row blocks of the edge perceptron's first weight. -/
abbrev wr3 : List (Ref sig .tc) := [main_v6, main_v7, main_v8]

theorem s3_writes : (hostOps0_3 (F := Ideal)).Forall fun op => op.writes ⊆ (wr3.map (Proc.devRef (τ := τ) .tc)).toFinset := by
  simp only [hostOps0_3, wr3, List.Forall, StableHlo.unary_writes,
    List.map, List.toFinset_cons, List.toFinset_nil, Finset.singleton_subset_iff, Finset.mem_insert, Finset.mem_singleton]
  simp

theorem s3_keeps (r : Ref sig .tc) (hr : r ∉ wr3) : StableHlo.after hostOps0_3 X (Proc.devRef .tc r) = X (Proc.devRef .tc r) :=
  StableHlo.after_of_writes_sub _ _ s3_writes hr

theorem s3_v6 : StableHlo.after hostOps0_3 X (Proc.devRef .tc main_v6)
    = extractStridedSlice S128x128 ![0, 0] (X (Proc.devRef .tc main_arg3)) Facts₀.slices_S288x128_S128x128_0_0 := by
  after_results
theorem s3_v7 : StableHlo.after hostOps0_3 X (Proc.devRef .tc main_v7)
    = extractStridedSlice S128x128 ![128, 0] (X (Proc.devRef .tc main_arg3)) Facts₀.slices_S288x128_S128x128_128_0 := by
  after_results
theorem s3_v8 : StableHlo.after hostOps0_3 X (Proc.devRef .tc main_v8)
    = extractStridedSlice S32x128 ![256, 0] (X (Proc.devRef .tc main_arg3)) Facts₀.slices_S288x128_S32x128_256_0 := by
  after_results

/-- The references the stretch between the kernels writes. -/
abbrev wr4 : List (Ref sig .tc) := [main_cst, main_v10, main_v11, main_v12, main_v13, main_v14]

theorem s4_writes : (hostOps1 (F := Ideal)).Forall fun op => op.writes ⊆ (wr4.map (Proc.devRef (τ := τ) .tc)).toFinset := by
  simp only [hostOps1, wr4, List.Forall, StableHlo.nullary_writes, StableHlo.unary_writes, StableHlo.ternary_writes,
    List.map, List.toFinset_cons, List.toFinset_nil, Finset.singleton_subset_iff, Finset.mem_insert, Finset.mem_singleton]
  simp

theorem s4_keeps (r : Ref sig .tc) (hr : r ∉ wr4) : StableHlo.after hostOps1 X (Proc.devRef .tc r) = X (Proc.devRef .tc r) :=
  StableHlo.after_of_writes_sub _ _ s4_writes hr

/-- The messages (as the edge kernel left them) added into their destination rows, from zero. -/
theorem s4_v12 : StableHlo.after hostOps1 X (Proc.devRef .tc main_v12)
    = Host.scatterAdd (F := Ideal) (φ := .f32) scatter_S50000x128_S640000x1_S640000x128_1_0_0_1
        (broadcastInDim S50000x128 ![] Facts₀.bcast_S_S50000x128 (constant (F := Ideal) S_ .f32 0x00000000#32))
        (broadcastInDim S640000x1 ![0] Facts₀.bcast_S640000_S640000x1_0 (X (Proc.devRef .tc main_v3)))
        (X (Proc.devRef .tc main_v9)) := by
  after_results
theorem s4_v13 : StableHlo.after hostOps1 X (Proc.devRef .tc main_v13)
    = extractStridedSlice S128x128 ![0, 0] (X (Proc.devRef .tc main_arg7)) Facts₀.slices_S256x128_S128x128_0_0 := by
  after_results
theorem s4_v14 : StableHlo.after hostOps1 X (Proc.devRef .tc main_v14)
    = extractStridedSlice S128x128 ![128, 0] (X (Proc.devRef .tc main_arg7)) Facts₀.slices_S256x128_S128x128_128_0 := by
  after_results

/-! ## What the edge kernel finds -/

/-- A buffer none of the first four stretches writes holds, at the edge kernel's entry, what it was launched with. -/
theorem W4_keeps (c : Dev nD) (r : Ref sig .tc) (h0 : r ∉ wr0) (h1 : r ∉ wr1) (h2 : r ∉ wr2) (h3 : r ∉ wr3) :
    W4 (F := Ideal) m ρ c (Proc.devRef .tc r) = m ((c.tc : Thread nD τ).loc r) := by
  show StableHlo.after hostOps0_3 (StableHlo.after hostOps0_2 (StableHlo.after hostOps0_1 (StableHlo.after hostOps0 (W0 m ρ c)))) (Proc.devRef .tc r) = _
  rw [s3_keeps _ r h3, s2_keeps _ r h2, s1_keeps _ r h1, s0_keeps _ r h0]

/-- The destination row of the edge list, still there at the edge kernel's entry. -/
theorem W4_v3 (c : Dev nD) : W4 (F := Ideal) m ρ c (Proc.devRef .tc main_v3) = dstIdx (m ((c.tc : Thread nD τ).loc main_arg1)) := by
  show StableHlo.after hostOps0_3 (StableHlo.after hostOps0_2 (StableHlo.after hostOps0_1 (StableHlo.after hostOps0 (W0 m ρ c)))) (Proc.devRef .tc main_v3) = _
  rw [s3_keeps _ main_v3 (by decide), s2_keeps _ main_v3 (by decide), s1_keeps _ main_v3 (by decide), s0_v3]

theorem V4_v4 (c : Dev nD) : (V4 (F := Ideal) m ρ c main_v4 : Mat 640000 128)
    = Take.takeFill (m ((c.tc : Thread nD τ).loc main_arg0)) (srcIdx (m ((c.tc : Thread nD τ).loc main_arg1))) := by
  show StableHlo.after hostOps0_3 (StableHlo.after hostOps0_2 (StableHlo.after hostOps0_1 (StableHlo.after hostOps0 (W0 m ρ c)))) (Proc.devRef .tc main_v4) = _
  rw [s3_keeps _ main_v4 (by decide), s2_keeps _ main_v4 (by decide), s1_v4, s0_keeps _ main_arg0 (by decide), s0_v1]

theorem V4_v5 (c : Dev nD) : (V4 (F := Ideal) m ρ c main_v5 : Mat 640000 128)
    = Take.takeFill (m ((c.tc : Thread nD τ).loc main_arg0)) (dstIdx (m ((c.tc : Thread nD τ).loc main_arg1))) := by
  show StableHlo.after hostOps0_3 (StableHlo.after hostOps0_2 (StableHlo.after hostOps0_1 (StableHlo.after hostOps0 (W0 m ρ c)))) (Proc.devRef .tc main_v5) = _
  rw [s3_keeps _ main_v5 (by decide), s2_v5, s1_keeps _ main_arg0 (by decide), s1_keeps _ main_v3 (by decide), s0_keeps _ main_arg0 (by decide), s0_v3]

theorem V4_v6 (c : Dev nD) : (V4 (F := Ideal) m ρ c main_v6 : Mat 128 128)
    = extractStridedSlice S128x128 ![0, 0] (m ((c.tc : Thread nD τ).loc main_arg3)) Facts₀.slices_S288x128_S128x128_0_0 := by
  show StableHlo.after hostOps0_3 (StableHlo.after hostOps0_2 (StableHlo.after hostOps0_1 (StableHlo.after hostOps0 (W0 m ρ c)))) (Proc.devRef .tc main_v6) = _
  rw [s3_v6, s2_keeps _ main_arg3 (by decide), s1_keeps _ main_arg3 (by decide), s0_keeps _ main_arg3 (by decide)]
theorem V4_v7 (c : Dev nD) : (V4 (F := Ideal) m ρ c main_v7 : Mat 128 128)
    = extractStridedSlice S128x128 ![128, 0] (m ((c.tc : Thread nD τ).loc main_arg3)) Facts₀.slices_S288x128_S128x128_128_0 := by
  show StableHlo.after hostOps0_3 (StableHlo.after hostOps0_2 (StableHlo.after hostOps0_1 (StableHlo.after hostOps0 (W0 m ρ c)))) (Proc.devRef .tc main_v7) = _
  rw [s3_v7, s2_keeps _ main_arg3 (by decide), s1_keeps _ main_arg3 (by decide), s0_keeps _ main_arg3 (by decide)]
theorem V4_v8 (c : Dev nD) : (V4 (F := Ideal) m ρ c main_v8 : Mat 32 128)
    = extractStridedSlice S32x128 ![256, 0] (m ((c.tc : Thread nD τ).loc main_arg3)) Facts₀.slices_S288x128_S32x128_256_0 := by
  show StableHlo.after hostOps0_3 (StableHlo.after hostOps0_2 (StableHlo.after hostOps0_1 (StableHlo.after hostOps0 (W0 m ρ c)))) (Proc.devRef .tc main_v8) = _
  rw [s3_v8, s2_keeps _ main_arg3 (by decide), s1_keeps _ main_arg3 (by decide), s0_keeps _ main_arg3 (by decide)]

/-- The messages array at the edge kernel's exit: every edge's message, when the edge list's entries are valid row indices. -/
theorem W5_v9 (c : Dev nD) (hr : ∀ i : S2x640000.Idx, Take.InRange (m ((c.tc : Thread nD τ).loc main_arg1) i)) :
    (W5 (F := Ideal) m ρ c (Proc.devRef .tc main_v9) : Mat 640000 128)
      = msgs (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (W5_arr m ρ c 9).trans ((EdgeArray.final (V4 m ρ) c).trans ?_)
  rw [V4_v4 m ρ c, V4_v5 m ρ c, V4_v6 m ρ c, V4_v7 m ρ c, V4_v8 m ρ c,
    Take.takeFill_eq _ _ (Take.srcIdx_range _ hr), Take.takeFill_eq _ _ (Take.dstIdx_range _ hr),
    show V4 (F := Ideal) m ρ c main_arg2 = m ((c.tc : Thread nD τ).loc main_arg2) from W4_keeps m ρ c main_arg2 (by decide) (by decide) (by decide) (by decide),
    show V4 (F := Ideal) m ρ c main_arg4 = m ((c.tc : Thread nD τ).loc main_arg4) from W4_keeps m ρ c main_arg4 (by decide) (by decide) (by decide) (by decide),
    show V4 (F := Ideal) m ρ c main_arg5 = m ((c.tc : Thread nD τ).loc main_arg5) from W4_keeps m ρ c main_arg5 (by decide) (by decide) (by decide) (by decide),
    show V4 (F := Ideal) m ρ c main_arg6 = m ((c.tc : Thread nD τ).loc main_arg6) from W4_keeps m ρ c main_arg6 (by decide) (by decide) (by decide) (by decide)]
  rfl

/-! ## What the node kernel finds -/

/-- A buffer that no stretch writes and that is no operand of the edge kernel holds, at the node kernel's entry, what
    it was launched with. -/
theorem W6_keeps (c : Dev nD) (r : Ref sig .tc) (h0 : r ∉ wr0) (h1 : r ∉ wr1) (h2 : r ∉ wr2) (h3 : r ∉ wr3) (h4 : r ∉ wr4)
    (hw : ∀ w, Pipeline.arrRef spec0 w ≠ r) :
    W6 (F := Ideal) m ρ c (Proc.devRef .tc r) = m ((c.tc : Thread nD τ).loc r) := by
  show StableHlo.after hostOps1 (W5 m ρ c) (Proc.devRef .tc r) = _
  rw [s4_keeps _ r h4, W5_of_ne m ρ c r hw]
  exact W4_keeps m ρ c r h0 h1 h2 h3

theorem V6_v12 (c : Dev nD) (hr : ∀ i : S2x640000.Idx, Take.InRange (m ((c.tc : Thread nD τ).loc main_arg1) i)) :
    (V6 (F := Ideal) m ρ c main_v12 : Mat 50000 128)
      = agg (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  show StableHlo.after hostOps1 (W5 m ρ c) (Proc.devRef .tc main_v12) = _
  rw [s4_v12, W5_of_ne m ρ c main_v3 (by decide), W4_v3 m ρ c, W5_v9 m ρ c hr]
  rfl

theorem V6_v13 (c : Dev nD) : (V6 (F := Ideal) m ρ c main_v13 : Mat 128 128)
    = extractStridedSlice S128x128 ![0, 0] (m ((c.tc : Thread nD τ).loc main_arg7)) Facts₀.slices_S256x128_S128x128_0_0 := by
  show StableHlo.after hostOps1 (W5 m ρ c) (Proc.devRef .tc main_v13) = _
  rw [s4_v13, W5_of_ne m ρ c main_arg7 (by decide), W4_keeps m ρ c main_arg7 (by decide) (by decide) (by decide) (by decide)]
theorem V6_v14 (c : Dev nD) : (V6 (F := Ideal) m ρ c main_v14 : Mat 128 128)
    = extractStridedSlice S128x128 ![128, 0] (m ((c.tc : Thread nD τ).loc main_arg7)) Facts₀.slices_S256x128_S128x128_128_0 := by
  show StableHlo.after hostOps1 (W5 m ρ c) (Proc.devRef .tc main_v14) = _
  rw [s4_v14, W5_of_ne m ρ c main_arg7 (by decide), W4_keeps m ρ c main_arg7 (by decide) (by decide) (by decide) (by decide)]

/-! ## The result -/

/-- The result buffer's final contents: the layer's function of the thirteen arguments. -/
theorem result (c : Dev nD) (hr : ∀ i : S2x640000.Idx, Take.InRange (m ((c.tc : Thread nD τ).loc main_arg1) i)) :
    (W7 (F := Ideal) m ρ c (Proc.devRef .tc main_v15) : Mat 50000 128)
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  refine (W7_arr m ρ c 9).trans ((NodeArray.final (V6 m ρ) c).trans ?_)
  rw [V6_v12 m ρ c hr, V6_v13 m ρ c, V6_v14 m ρ c,
    show V6 (F := Ideal) m ρ c main_arg0 = m ((c.tc : Thread nD τ).loc main_arg0) from W6_keeps m ρ c main_arg0 (by decide) (by decide) (by decide) (by decide) (by decide) (by decide),
    show V6 (F := Ideal) m ρ c main_arg8 = m ((c.tc : Thread nD τ).loc main_arg8) from W6_keeps m ρ c main_arg8 (by decide) (by decide) (by decide) (by decide) (by decide) (by decide),
    show V6 (F := Ideal) m ρ c main_arg9 = m ((c.tc : Thread nD τ).loc main_arg9) from W6_keeps m ρ c main_arg9 (by decide) (by decide) (by decide) (by decide) (by decide) (by decide),
    show V6 (F := Ideal) m ρ c main_arg10 = m ((c.tc : Thread nD τ).loc main_arg10) from W6_keeps m ρ c main_arg10 (by decide) (by decide) (by decide) (by decide) (by decide) (by decide),
    show V6 (F := Ideal) m ρ c main_arg11 = m ((c.tc : Thread nD τ).loc main_arg11) from W6_keeps m ρ c main_arg11 (by decide) (by decide) (by decide) (by decide) (by decide) (by decide),
    show V6 (F := Ideal) m ρ c main_arg12 = m ((c.tc : Thread nD τ).loc main_arg12) from W6_keeps m ρ c main_arg12 (by decide) (by decide) (by decide) (by decide) (by decide) (by decide)]
  rfl

end Cert.Mpnn.KernelValue

end
-- ==== Proof.RefEdge.lean ====
/-
  The reference's messages. The reference concatenates `[h_src | h_dst | e]` into rows of 288 entries and multiplies
  by the whole first weight; a sum over the concatenated axis is the sum of the sums over its three pieces, and each
  piece meets the matching row block of the weight. So its messages are `msgRows` of the two gathered arrays, the edge
  attributes, and the three row blocks of the weight.
-/
import proofs.«428248_j7799660609777_1_alg».proof.Proof.Gen.ReferenceIdeal.Read
import proofs.«428248_j7799660609777_1_alg».proof.Proof.Spec
import proofs.«428248_j7799660609777_1_alg».proof.Proof.LibRowOps
import Idealize.ShloMosaic.Lib.ValueLayout

noncomputable section

namespace Cert.Mpnn.RefEdge

open Idealize.ShloMosaic Idealize.ShloMosaic.ValueIdx Cert.Mpnn
open Cert.ReferenceIdeal Cert.ReferenceIdeal.Read
open scoped BigOperators

/-- Three pieces side by side, of widths 128, 128 and 32: a column below 128 is the first piece's. -/
private theorem cat3_apply_0 {α : Type} {n : ℕ} (a b : (⟨2, ![n, 128]⟩ : Shape).Idx → α) (c : (⟨2, ![n, 32]⟩ : Shape).Idx → α)
    (h : Shape.Concatenates [(⟨2, ![n, 128]⟩ : Shape), ⟨2, ![n, 128]⟩, ⟨2, ![n, 32]⟩] ⟨2, ![n, 288]⟩ 1)
    (p : Fin n) (l : Fin 128) :
    concatenate ⟨2, ![n, 288]⟩ 1 [⟨⟨2, ![n, 128]⟩, a⟩, ⟨⟨2, ![n, 128]⟩, b⟩, ⟨⟨2, ![n, 32]⟩, c⟩] h
        (ix2 p (⟨l.val, by omega⟩ : Fin 288))
      = a (ix2 p l) :=
  concatenate_apply_piece 1 [⟨⟨2, ![n, 128]⟩, a⟩, ⟨⟨2, ![n, 128]⟩, b⟩, ⟨⟨2, ![n, 32]⟩, c⟩] h
    (ix2 p (⟨l.val, by omega⟩ : Fin 288)) 0 (by show (0 : ℕ) < 3; omega) _ a rfl rfl 0 rfl (ix2 p l)
    (fun bb hb => by match bb with | ⟨0, _⟩ => rfl | ⟨1, _⟩ => exact absurd rfl hb)
    (by show 0 + l.val = l.val; omega)

/-- A column `128 + l` is the second piece's column `l`. -/
private theorem cat3_apply_1 {α : Type} {n : ℕ} (a b : (⟨2, ![n, 128]⟩ : Shape).Idx → α) (c : (⟨2, ![n, 32]⟩ : Shape).Idx → α)
    (h : Shape.Concatenates [(⟨2, ![n, 128]⟩ : Shape), ⟨2, ![n, 128]⟩, ⟨2, ![n, 32]⟩] ⟨2, ![n, 288]⟩ 1)
    (p : Fin n) (l : Fin 128) :
    concatenate ⟨2, ![n, 288]⟩ 1 [⟨⟨2, ![n, 128]⟩, a⟩, ⟨⟨2, ![n, 128]⟩, b⟩, ⟨⟨2, ![n, 32]⟩, c⟩] h
        (ix2 p (⟨128 + l.val, by omega⟩ : Fin 288))
      = b (ix2 p l) :=
  concatenate_apply_piece 1 [⟨⟨2, ![n, 128]⟩, a⟩, ⟨⟨2, ![n, 128]⟩, b⟩, ⟨⟨2, ![n, 32]⟩, c⟩] h
    (ix2 p (⟨128 + l.val, by omega⟩ : Fin 288)) 1 (by show (1 : ℕ) < 3; omega) _ b rfl rfl 128 rfl (ix2 p l)
    (fun bb hb => by match bb with | ⟨0, _⟩ => rfl | ⟨1, _⟩ => exact absurd rfl hb)
    (by show 128 + l.val = 128 + l.val; rfl)

/-- A column `256 + l` is the third piece's column `l`. -/
private theorem cat3_apply_2 {α : Type} {n : ℕ} (a b : (⟨2, ![n, 128]⟩ : Shape).Idx → α) (c : (⟨2, ![n, 32]⟩ : Shape).Idx → α)
    (h : Shape.Concatenates [(⟨2, ![n, 128]⟩ : Shape), ⟨2, ![n, 128]⟩, ⟨2, ![n, 32]⟩] ⟨2, ![n, 288]⟩ 1)
    (p : Fin n) (l : Fin 32) :
    concatenate ⟨2, ![n, 288]⟩ 1 [⟨⟨2, ![n, 128]⟩, a⟩, ⟨⟨2, ![n, 128]⟩, b⟩, ⟨⟨2, ![n, 32]⟩, c⟩] h
        (ix2 p (⟨256 + l.val, by omega⟩ : Fin 288))
      = c (ix2 p l) :=
  concatenate_apply_piece 1 [⟨⟨2, ![n, 128]⟩, a⟩, ⟨⟨2, ![n, 128]⟩, b⟩, ⟨⟨2, ![n, 32]⟩, c⟩] h
    (ix2 p (⟨256 + l.val, by omega⟩ : Fin 288)) 2 (by show (2 : ℕ) < 3; omega) _ c rfl rfl 256 rfl (ix2 p l)
    (fun bb hb => by match bb with | ⟨0, _⟩ => rfl | ⟨1, _⟩ => exact absurd rfl hb)
    (by show 256 + l.val = 256 + l.val; rfl)

/-- The first product's operands, at output entry `(p, k)` and contraction index `c`: row `p`, column `c` of the
    concatenated rows, and row `c`, column `k` of the weight. -/
private theorem lidx19 (p : Fin 640000) (k : Fin 128) (c : Fin 288) : lidx_main_v19 (ix2 p k) c = ix2 p c :=
  funext fun a => Fin.ext (by match a with | ⟨0, _⟩ => rfl | ⟨1, _⟩ => rfl)

private theorem ridx19 (p : Fin 640000) (k : Fin 128) (c : Fin 288) : ridx_main_v19 (ix2 p k) c = ix2 c k :=
  funext fun a => Fin.ext (by match a with | ⟨0, _⟩ => rfl | ⟨1, _⟩ => rfl)

/-- The second product's operands, likewise. -/
private theorem lidx24 (p : Fin 640000) (j : Fin 128) (k : Fin 128) : lidx_main_v24 (ix2 p j) k = ix2 p k :=
  funext fun a => Fin.ext (by match a with | ⟨0, _⟩ => rfl | ⟨1, _⟩ => rfl)

private theorem ridx24 (p : Fin 640000) (j : Fin 128) (k : Fin 128) : ridx_main_v24 (ix2 p j) k = ix2 k j :=
  funext fun a => Fin.ext (by match a with | ⟨0, _⟩ => rfl | ⟨1, _⟩ => rfl)

/-- Row `o + l` of the weight is row `l` of its row block cut from `o`. -/
private theorem w_block {m : ℕ} (o : ℕ) (W : Mat 288 128) (h : (⟨2, ![288, 128]⟩ : Shape).Slices ![o, 0] ⟨2, ![m, 128]⟩)
    (l : Fin m) (k : Fin 128) (c : Fin 288) (hc : c.val = o + l.val) :
    W (ix2 c k) = extractStridedSlice ⟨2, ![m, 128]⟩ ![o, 0] W h (ix2 l k) :=
  (slice2_axis0_apply o W h l k c hc).symm

/-- The hidden row of edge `p`: the product of the concatenated row with the whole weight is the sum of the three
    products of its pieces with the weight's row blocks. -/
private theorem hidden_eq (x0 : Mat 50000 128) (x1 : IVec S2x640000 32) (x2 : Mat 640000 32) (x3 : Mat 288 128) (x4 : Vec1 128)
    (h0 : (⟨2, ![288, 128]⟩ : Shape).Slices ![0, 0] ⟨2, ![128, 128]⟩)
    (h128 : (⟨2, ![288, 128]⟩ : Shape).Slices ![128, 0] ⟨2, ![128, 128]⟩)
    (h256 : (⟨2, ![288, 128]⟩ : Shape).Slices ![256, 0] ⟨2, ![32, 128]⟩) (p : Fin 640000) (k : Fin 128) :
    val_main_v23 (F := Ideal) x0 x1 x2 x3 x4 (ix2 p k)
      = edgeHidden (rowOf (val_main_v10 (F := Ideal) x0 x1) p) (rowOf (val_main_v17 (F := Ideal) x0 x1) p) (rowOf x2 p)
          (extractStridedSlice ⟨2, ![128, 128]⟩ ![0, 0] x3 h0) (extractStridedSlice ⟨2, ![128, 128]⟩ ![128, 0] x3 h128)
          (extractStridedSlice ⟨2, ![32, 128]⟩ ![256, 0] x3 h256) x4 k := by
  unfold edgeHidden
  rw [val_main_v23_apply, val_main_v22_apply, val_main_v19_apply, val_main_v21_apply, val_main_v20_apply,
    val_main_call0_v0_apply, val_main_call0_cst_apply]
  rw [Ideal.maximumf_def, Ideal.addf_def, Ideal.ofBits_def]
  unfold val_main_v18
  generalize val_main_v10 (F := Ideal) x0 x1 = A
  generalize val_main_v17 (F := Ideal) x0 x1 = B
  have hb : idx_main_v20 (idx_main_v21 (ix2 p k)) = ix1 k :=
    funext fun a => Fin.ext (by match a with | ⟨0, _⟩ => rfl)
  rw [hb, sum_three_blocks]
  refine congrArg₂ max (congrArg₂ (· + ·) (congrArg₂ (· + ·) (congrArg₂ (· + ·) ?_ ?_) ?_) rfl) rfl
  · refine Finset.sum_congr rfl fun l _ => ?_
    rw [lidx19, ridx19]
    exact congrArg₂ (· * ·) (cat3_apply_0 A B x2 _ p l) (w_block 0 x3 h0 l k _ (Nat.zero_add _).symm)
  · refine Finset.sum_congr rfl fun l _ => ?_
    rw [lidx19, ridx19]
    exact congrArg₂ (· * ·) (cat3_apply_1 A B x2 _ p l) (w_block 128 x3 h128 l k _ rfl)
  · refine Finset.sum_congr rfl fun l _ => ?_
    rw [lidx19, ridx19]
    exact congrArg₂ (· * ·) (cat3_apply_2 A B x2 _ p l) (w_block 256 x3 h256 l k _ rfl)

/-- The stage that holds every edge's message is `msgRows` of the gathered rows and the weight's row blocks. -/
theorem msgs_eq (x0 : Mat 50000 128) (x1 : IVec S2x640000 32) (x2 : Mat 640000 32) (x3 : Mat 288 128) (x4 : Vec1 128)
    (x5 : Mat 128 128) (x6 : Vec1 128)
    (h0 : (⟨2, ![288, 128]⟩ : Shape).Slices ![0, 0] ⟨2, ![128, 128]⟩)
    (h128 : (⟨2, ![288, 128]⟩ : Shape).Slices ![128, 0] ⟨2, ![128, 128]⟩)
    (h256 : (⟨2, ![288, 128]⟩ : Shape).Slices ![256, 0] ⟨2, ![32, 128]⟩) :
    val_main_v27 (F := Ideal) x0 x1 x2 x3 x4 x5 x6
      = msgRows (n := 640000) (val_main_v10 (F := Ideal) x0 x1) (val_main_v17 (F := Ideal) x0 x1) x2
          (extractStridedSlice ⟨2, ![128, 128]⟩ ![0, 0] x3 h0) (extractStridedSlice ⟨2, ![128, 128]⟩ ![128, 0] x3 h128)
          (extractStridedSlice ⟨2, ![32, 128]⟩ ![256, 0] x3 h256) x4 x5 x6 := by
  funext i
  obtain ⟨p, j, rfl⟩ : ∃ (p : Fin 640000) (j : Fin 128), i = ix2 p j := ⟨i 0, i 1, eq_ix2 i⟩
  rw [msgRows_apply]
  unfold edgeMsg
  rw [val_main_v27_apply, val_main_v24_apply, val_main_v26_apply, val_main_v25_apply, Ideal.addf_def]
  refine congrArg₂ (· + ·) (Finset.sum_congr rfl fun k _ => ?_) (congrArg x6 ?_)
  · rw [lidx24, ridx24, hidden_eq x0 x1 x2 x3 x4 h0 h128 h256 p k]
  · exact funext fun a => Fin.ext (by match a with | ⟨0, _⟩ => rfl)

end Cert.Mpnn.RefEdge

end
-- ==== Proof.RefNode.lean ====
/-
  The reference's result. The reference concatenates `[h | agg]` into rows of 256 entries and multiplies by the whole
  first weight of the node perceptron: the sum over the concatenated axis is the sum over `h`'s entries against the
  weight's first row block plus the sum over `agg`'s against its second. The residual sum and the row normalisation
  (mean, variance, reciprocal square root, scale and shift) follow operation by operation. So its result is `nodeRows`
  of `h`, the aggregated messages, and the two row blocks of the weight.
-/
import proofs.«428248_j7799660609777_1_alg».proof.Proof.Gen.ReferenceIdeal.Read
import proofs.«428248_j7799660609777_1_alg».proof.Proof.Spec
import proofs.«428248_j7799660609777_1_alg».proof.Proof.LibRowOps
import Idealize.ShloMosaic.Lib.ValueLayout

noncomputable section

namespace Cert.Mpnn.RefNode

open Idealize.ShloMosaic Idealize.ShloMosaic.ValueIdx Cert.Mpnn
open Cert.ReferenceIdeal Cert.ReferenceIdeal.Read
open scoped BigOperators

section Stages

variable (x0 : Mat 50000 128) (x1 : IVec S2x640000 32) (x2 : Mat 640000 32) (x3 : Mat 288 128) (x4 : Vec1 128)
    (x5 : Mat 128 128) (x6 : Vec1 128) (x7 : Mat 256 128) (x8 : Vec1 128) (x9 : Mat 128 128) (x10 x11 x12 : Vec1 128)
    (h0 : (⟨2, ![256, 128]⟩ : Shape).Slices ![0, 0] ⟨2, ![128, 128]⟩)
    (h128 : (⟨2, ![256, 128]⟩ : Shape).Slices ![128, 0] ⟨2, ![128, 128]⟩)

/-- Column `l < 128` of the concatenated row `[h | agg]` is entry `l` of `h`'s row. -/
private theorem cat_left (p : Fin 50000) (k l : Fin 128) :
    val_main_v31 (F := Ideal) x0 x1 x2 x3 x4 x5 x6 (lidx_main_v32 (ix2 p k) ⟨l.val, by omega⟩) = x0 (ix2 p l) := by
  unfold val_main_v31
  generalize val_main_v30 (F := Ideal) x0 x1 x2 x3 x4 x5 x6 = A
  exact concatenate_pair_apply_left (t := S50000x256) 1 x0 A Gen.concatenates_S50000x128_S50000x128_S50000x256_d1
    (lidx_main_v32 (ix2 p k) ⟨l.val, by omega⟩) rfl (ix2 p l)
    (fun b => by match b with | ⟨0, _⟩ => rfl | ⟨1, _⟩ => rfl)

/-- Column `128 + l` of the concatenated row is entry `l` of the aggregated messages' row. -/
private theorem cat_right (p : Fin 50000) (k l : Fin 128) :
    val_main_v31 (F := Ideal) x0 x1 x2 x3 x4 x5 x6 (lidx_main_v32 (ix2 p k) ⟨128 + l.val, by omega⟩)
      = val_main_v30 (F := Ideal) x0 x1 x2 x3 x4 x5 x6 (ix2 p l) := by
  unfold val_main_v31
  generalize val_main_v30 (F := Ideal) x0 x1 x2 x3 x4 x5 x6 = A
  exact concatenate_pair_apply_right (t := S50000x256) 1 x0 A Gen.concatenates_S50000x128_S50000x128_S50000x256_d1
    (lidx_main_v32 (ix2 p k) ⟨128 + l.val, by omega⟩) rfl rfl (ix2 p l)
    (fun b hb => by match b with | ⟨0, _⟩ => rfl | ⟨1, _⟩ => exact absurd rfl hb)
    (by show l.val + 128 = 128 + l.val; omega)

/-- The bias row read at `(p, k)` is entry `k` of the bias. -/
private theorem bias_idx (p : Fin 50000) (k : Fin 128) :
    idx_main_v33 (idx_main_v34 (ix2 p k)) = ix1 k :=
  funext fun a => Fin.ext (by match a with | ⟨0, _⟩ => rfl)

/-- The weight read at `(l, k)` through the product's right index, first row block. -/
private theorem w_lo (p : Fin 50000) (k l : Fin 128) :
    x7 (ridx_main_v32 (ix2 p k) ⟨l.val, by omega⟩)
      = extractStridedSlice ⟨2, ![128, 128]⟩ ![0, 0] x7 h0 (ix2 l k) := by
  rw [slice2_axis0_eq 0 x7 h0 l k]
  exact congrArg x7 (funext fun a => Fin.ext (by match a with | ⟨0, _⟩ => exact (Nat.zero_add _).symm | ⟨1, _⟩ => rfl))

/-- The same, second row block. -/
private theorem w_hi (p : Fin 50000) (k l : Fin 128) :
    x7 (ridx_main_v32 (ix2 p k) ⟨128 + l.val, by omega⟩)
      = extractStridedSlice ⟨2, ![128, 128]⟩ ![128, 0] x7 h128 (ix2 l k) := by
  rw [slice2_axis0_eq 128 x7 h128 l k]
  exact congrArg x7 (funext fun a => Fin.ext (by match a with | ⟨0, _⟩ => rfl | ⟨1, _⟩ => rfl))

/-- The hidden row of the node perceptron: the product with the concatenated row is the sum of the products with
    the weight's two row blocks. -/
private theorem hid_eq (p : Fin 50000) (k : Fin 128) :
    val_main_v36 (F := Ideal) x0 x1 x2 x3 x4 x5 x6 x7 x8 (ix2 p k)
      = nodeHidden (rowOf x0 p) (rowOf (val_main_v30 (F := Ideal) x0 x1 x2 x3 x4 x5 x6) p)
          (extractStridedSlice ⟨2, ![128, 128]⟩ ![0, 0] x7 h0) (extractStridedSlice ⟨2, ![128, 128]⟩ ![128, 0] x7 h128) x8 k := by
  rw [val_main_v36_apply, val_main_v35_apply, val_main_v32_apply, val_main_v34_apply, val_main_v33_apply,
    val_main_call1_v0_apply, val_main_call1_cst_apply, bias_idx, sum_two_blocks]
  unfold nodeHidden
  rw [Ideal.maximumf_def, Ideal.addf_def, Ideal.ofBits_def]
  refine congrArg (fun t => max (t + x8 (ix1 k)) zeroF) (congrArg₂ (· + ·) ?_ ?_)
  · exact Finset.sum_congr rfl fun l _ => by rw [cat_left, w_lo x7 h0]
  · exact Finset.sum_congr rfl fun l _ => by rw [cat_right, w_hi x7 h128]

/-- Row `p` before normalisation, as the specification writes it, at the reference's operands. -/
private abbrev preRow (p : Fin 50000) : Fin 128 → EReal :=
  nodePre (rowOf x0 p) (rowOf (val_main_v30 (F := Ideal) x0 x1 x2 x3 x4 x5 x6) p)
    (extractStridedSlice ⟨2, ![128, 128]⟩ ![0, 0] x7 h0) (extractStridedSlice ⟨2, ![128, 128]⟩ ![128, 0] x7 h128) x8 x9 x10

private theorem bias2_idx (p : Fin 50000) (q : Fin 128) :
    idx_main_v38 (idx_main_v39 (ix2 p q)) = ix1 q :=
  funext fun a => Fin.ext (by match a with | ⟨0, _⟩ => rfl)

private theorem lidx37_eq (p : Fin 50000) (q k : Fin 128) : lidx_main_v37 (ix2 p q) k = ix2 p k :=
  funext fun a => Fin.ext (by match a with | ⟨0, _⟩ => rfl | ⟨1, _⟩ => rfl)

private theorem ridx37_eq (p : Fin 50000) (q k : Fin 128) : ridx_main_v37 (ix2 p q) k = ix2 k q :=
  funext fun a => Fin.ext (by match a with | ⟨0, _⟩ => rfl | ⟨1, _⟩ => rfl)

/-- The residual sum: `h` plus the perceptron's second layer of the hidden row. -/
private theorem pre_eq (p : Fin 50000) (q : Fin 128) :
    val_main_v41 (F := Ideal) x0 x1 x2 x3 x4 x5 x6 x7 x8 x9 x10 (ix2 p q)
      = preRow x0 x1 x2 x3 x4 x5 x6 x7 x8 x9 x10 h0 h128 p q := by
  rw [val_main_v41_apply, val_main_v40_apply, val_main_v37_apply, val_main_v39_apply, val_main_v38_apply, bias2_idx,
    Ideal.addf_def, Ideal.addf_def]
  show _ = x0 (ix2 p q) + ((∑ k : Fin 128, nodeHidden _ _ _ _ x8 k * x9 (ix2 k q)) + x10 (ix1 q))
  refine congrArg (fun t => x0 (ix2 p q) + (t + x10 (ix1 q))) (Finset.sum_congr rfl fun k _ => ?_)
  rw [lidx37_eq, ridx37_eq, hid_eq x0 x1 x2 x3 x4 x5 x6 x7 x8 h0 h128]

private theorem idx42_eq (p : Fin 50000) (k : Fin 128) :
    idx_main_v42 (idx_main_v43 (ix2 p (0 : Fin 1))) k = ix2 p k :=
  funext fun a => Fin.ext (by match a with | ⟨0, _⟩ => rfl | ⟨1, _⟩ => rfl)

private theorem idx49_eq (p : Fin 50000) (k : Fin 128) :
    idx_main_v49 (idx_main_v50 (ix2 p (0 : Fin 1))) k = ix2 p k :=
  funext fun a => Fin.ext (by match a with | ⟨0, _⟩ => rfl | ⟨1, _⟩ => rfl)

private theorem idx46_eq (p : Fin 50000) (q : Fin 128) : idx_main_v46 (ix2 p q) = ix2 p (0 : Fin 1) :=
  funext fun a => Fin.ext (by match a with | ⟨0, _⟩ => rfl | ⟨1, _⟩ => rfl)

private theorem idx53_eq (p : Fin 50000) (q : Fin 128) : idx_main_v53 (ix2 p q) = ix2 p (0 : Fin 1) :=
  funext fun a => Fin.ext (by match a with | ⟨0, _⟩ => rfl | ⟨1, _⟩ => rfl)

private theorem idx58_eq (p : Fin 50000) (q : Fin 128) : idx_main_v58 (ix2 p q) = ix2 p (0 : Fin 1) :=
  funext fun a => Fin.ext (by match a with | ⟨0, _⟩ => rfl | ⟨1, _⟩ => rfl)

/-- The row's mean: the row sum (from the zero word) over `128`. -/
private theorem mean_eq (p : Fin 50000) :
    val_main_v45 (F := Ideal) x0 x1 x2 x3 x4 x5 x6 x7 x8 x9 x10 (ix2 p (0 : Fin 1))
      = rowMean (preRow x0 x1 x2 x3 x4 x5 x6 x7 x8 x9 x10 h0 h128 p) := by
  rw [val_main_v45_apply, val_main_v43_apply, val_main_v42_apply, val_main_v44_apply, val_main_cst_4_apply,
    val_main_cst_3_apply, Ideal.hostDivf_def, Ideal.ofBits_def, Ideal.ofBits_def, Ideal.ofBits_zero_f32, zero_add]
  unfold rowMean
  refine congrArg (fun t => Ideal.div t c128) (Finset.sum_congr rfl fun k _ => ?_)
  rw [idx42_eq, pre_eq x0 x1 x2 x3 x4 x5 x6 x7 x8 x9 x10 h0 h128]

/-- The row's variance: the mean of the squared deviations from the row's mean. -/
private theorem var_eq (p : Fin 50000) :
    val_main_v52 (F := Ideal) x0 x1 x2 x3 x4 x5 x6 x7 x8 x9 x10 (ix2 p (0 : Fin 1))
      = rowVar (preRow x0 x1 x2 x3 x4 x5 x6 x7 x8 x9 x10 h0 h128 p) := by
  rw [val_main_v52_apply, val_main_v50_apply, val_main_v49_apply, val_main_v51_apply, val_main_cst_6_apply,
    val_main_cst_5_apply, Ideal.hostDivf_def, Ideal.ofBits_def, Ideal.ofBits_def, Ideal.ofBits_zero_f32, zero_add]
  unfold rowVar
  refine congrArg (fun t => Ideal.div t c128) (Finset.sum_congr rfl fun k _ => ?_)
  rw [idx49_eq, val_main_v48_apply, val_main_v47_apply, val_main_v46_apply, idx46_eq,
    mean_eq x0 x1 x2 x3 x4 x5 x6 x7 x8 x9 x10 h0 h128, pre_eq x0 x1 x2 x3 x4 x5 x6 x7 x8 x9 x10 h0 h128,
    Ideal.mulf_def, Ideal.subf_def]

private theorem idx61_eq (p : Fin 50000) (q : Fin 128) : idx_main_v60 (idx_main_v61 (ix2 p q)) = ix1 q :=
  funext fun a => Fin.ext (by match a with | ⟨0, _⟩ => rfl)

private theorem idx64_eq (p : Fin 50000) (q : Fin 128) : idx_main_v63 (idx_main_v64 (ix2 p q)) = ix1 q :=
  funext fun a => Fin.ext (by match a with | ⟨0, _⟩ => rfl)

end Stages

/-- The last stage is `nodeRows` of `h`, the aggregated-messages stage and the weight's row blocks. -/
theorem out_eq (x0 : Mat 50000 128) (x1 : IVec S2x640000 32) (x2 : Mat 640000 32) (x3 : Mat 288 128) (x4 : Vec1 128)
    (x5 : Mat 128 128) (x6 : Vec1 128) (x7 : Mat 256 128) (x8 : Vec1 128) (x9 : Mat 128 128) (x10 x11 x12 : Vec1 128)
    (h0 : (⟨2, ![256, 128]⟩ : Shape).Slices ![0, 0] ⟨2, ![128, 128]⟩)
    (h128 : (⟨2, ![256, 128]⟩ : Shape).Slices ![128, 0] ⟨2, ![128, 128]⟩) :
    val_main_v65 (F := Ideal) x0 x1 x2 x3 x4 x5 x6 x7 x8 x9 x10 x11 x12
      = nodeRows (n := 50000) x0 (val_main_v30 (F := Ideal) x0 x1 x2 x3 x4 x5 x6)
          (extractStridedSlice ⟨2, ![128, 128]⟩ ![0, 0] x7 h0) (extractStridedSlice ⟨2, ![128, 128]⟩ ![128, 0] x7 h128)
          x8 x9 x10 x11 x12 := by
  funext i
  obtain ⟨p, q, rfl⟩ : ∃ (p : Fin 50000) (q : Fin 128), i = ix2 p q := ⟨i 0, i 1, eq_ix2 i⟩
  rw [nodeRows_apply]
  unfold layerNorm
  -- scale by gamma and shift by beta, both read as rows
  rw [val_main_v65_apply, val_main_v62_apply, val_main_v64_apply, val_main_v63_apply, idx64_eq,
    val_main_v61_apply, val_main_v60_apply, idx61_eq]
  -- the centred row times the reciprocal square root of the variance plus epsilon
  rw [val_main_v59_apply, val_main_v54_apply, val_main_v53_apply, idx53_eq, val_main_v58_apply, idx58_eq,
    val_main_v57_apply, val_main_v56_apply, val_main_v55_apply, val_main_cst_7_apply,
    pre_eq x0 x1 x2 x3 x4 x5 x6 x7 x8 x9 x10 h0 h128, mean_eq x0 x1 x2 x3 x4 x5 x6 x7 x8 x9 x10 h0 h128,
    var_eq x0 x1 x2 x3 x4 x5 x6 x7 x8 x9 x10 h0 h128]
  rfl

end Cert.Mpnn.RefNode

end
-- ==== Proof.RefValue.lean ====
/-
  The reference's result as the same function of the arguments. Its two gathers are the plain gathers at the moved
  index columns; its messages are `msgRows` of them (the sum over the concatenated row split in three); its scatter-add
  is the same operation on the same destination column; its last stage is `nodeRows` (the sum over `[h | agg]` split
  in two, the normalisation operation by operation). So it is `Layer.out` of the thirteen arguments, with no condition.
-/
import proofs.«428248_j7799660609777_1_alg».proof.Proof.RefEdge
import proofs.«428248_j7799660609777_1_alg».proof.Proof.RefNode
import proofs.«428248_j7799660609777_1_alg».proof.Proof.Layer
import proofs.«428248_j7799660609777_1_alg».proof.Proof.Gen.KernelIdeal

noncomputable section

namespace Cert.Mpnn.RefValue

open Idealize.ShloMosaic Idealize.ShloMosaic.ValueIdx Cert.Mpnn Cert.Mpnn.Layer
open Cert.ReferenceIdeal.Read

variable (x0 : Mat 50000 128) (x1 : IVec (⟨2, ![2, 640000]⟩ : Shape) 32) (x2 : Mat 640000 32) (x3 : Mat 288 128) (x4 : Vec1 128)
  (x5 : Mat 128 128) (x6 : Vec1 128) (x7 : Mat 256 128) (x8 : Vec1 128) (x9 : Mat 128 128) (x10 x11 x12 : Vec1 128)

/-- The reference's first gather is the plain gather at the source column. -/
theorem take_src : val_main_v10 (F := Ideal) x0 x1 = takeRows x0 (srcIdx x1) := rfl

/-- Its second gather is the plain gather at the destination column. -/
theorem take_dst : val_main_v17 (F := Ideal) x0 x1 = takeRows x0 (dstIdx x1) := rfl

/-- Its messages. -/
theorem msgs_eq : val_main_v27 (F := Ideal) x0 x1 x2 x3 x4 x5 x6 = msgs x0 x1 x2 x3 x4 x5 x6 := by
  rw [RefEdge.msgs_eq x0 x1 x2 x3 x4 x5 x6 Cert.KernelIdeal.Facts₀.slices_S288x128_S128x128_0_0
    Cert.KernelIdeal.Facts₀.slices_S288x128_S128x128_128_0 Cert.KernelIdeal.Facts₀.slices_S288x128_S32x128_256_0,
    take_src, take_dst]
  rfl

/-- Its aggregated messages: the same scatter-add, of the same messages, at the same destination column. -/
theorem agg_eq : val_main_v30 (F := Ideal) x0 x1 x2 x3 x4 x5 x6 = agg x0 x1 x2 x3 x4 x5 x6 := by
  unfold val_main_v30
  rw [msgs_eq]
  rfl

/-- Its result. -/
theorem result : val_main_v65 (F := Ideal) x0 x1 x2 x3 x4 x5 x6 x7 x8 x9 x10 x11 x12
    = out x0 x1 x2 x3 x4 x5 x6 x7 x8 x9 x10 x11 x12 := by
  rw [RefNode.out_eq x0 x1 x2 x3 x4 x5 x6 x7 x8 x9 x10 x11 x12 Cert.KernelIdeal.Facts₀.slices_S256x128_S128x128_0_0
    Cert.KernelIdeal.Facts₀.slices_S256x128_S128x128_128_0, agg_eq]
  rfl

end Cert.Mpnn.RefValue

end
-- ==== Proof.PreRange.lean ====
/-
  What the precondition says of the edge list: every entry is a valid NumPy-style row index of a table of 50000 rows,
  `-50000 ≤ i < 50000`. The printed predicate is a conjunction of `jnp.all`s folded by `and`; its last two conjuncts
  are the two comparisons of the edge list against `-50000` and `50000`.
-/
import proofs.«428248_j7799660609777_1_alg».proof.Pre_finite_inputs
import Idealize.ShloMosaic.Lib.ReduceAll
import Idealize.ShloMosaic.Lib.StableHlo.Predicate
import Idealize.ShloMosaic.Lib.ValueIdx

noncomputable section

namespace Cert.Mpnn.PreRange

open Idealize.ShloMosaic Cert.Pre_finite_inputs

variable [Cert.Pre_finite_inputs.Facts] {F : FTy → Type} [FloatOps F]

/-- A shape of rank zero has one index. -/
private instance subsingleton_scalar_idx : Subsingleton S_.Idx := ⟨fun a b => funext fun d => d.elim0⟩

/-- The two literals read signed: the word `4294917296` is `2³² - 50000`, i.e. `-50000`. -/
private theorem toInt_lo : (4294917296#32 : BitVec 32).toInt = -50000 := by decide
private theorem toInt_hi : (50000#32 : BitVec 32).toInt = 50000 := by decide

/-- The last stage of the predicate: its result is `(earlier ∧ all (edges ≥ -50000)) ∧ all (edges < 50000)`, so when it is
    one both `all`s are one, and each `all` being one says its comparison holds at every entry. -/
private theorem part3_range (a1 : IVec S2x640000 32) (a12 : FVec F S128 .f32) (v48 : IVec S_ 1) (v49 v50 : FVec F S128 .f32)
    (h : fn_part3 (F := F) a1 a12 v48 v49 v50 = fun _ => 1#1) (i : S2x640000.Idx) :
    (-50000 : ℤ) ≤ (a1 i).toInt ∧ (a1 i).toInt < 50000 := by
  have h0 := congrFun h ValueIdx.ix0
  unfold fn_part3 at h0
  obtain ⟨h1, hlt⟩ := IntOp.andi_eq_one.1 h0
  obtain ⟨_, hge⟩ := IntOp.andi_eq_one.1 h1
  have hge' := IntOp.cmpi_sge.1 (Host.reduce_andi_all _ _ _ _ _ hge i)
  have hlt' := IntOp.cmpi_slt.1 (Host.reduce_andi_all _ _ _ _ _ hlt i)
  refine ⟨?_, ?_⟩
  · rw [← toInt_lo]; exact hge'
  · rw [← toInt_hi]; exact hlt'

/-- If the printed precondition is all ones, every entry of the edge list lies in `[-50000, 50000)` as a signed word. -/
theorem index_range (a0 : FVec F S50000x128 .f32) (a1 : IVec S2x640000 32) (a2 : FVec F S640000x32 .f32)
    (a3 : FVec F S288x128 .f32) (a4 : FVec F S128 .f32) (a5 : FVec F S128x128 .f32) (a6 : FVec F S128 .f32)
    (a7 : FVec F S256x128 .f32) (a8 : FVec F S128 .f32) (a9 : FVec F S128x128 .f32) (a10 a11 a12 : FVec F S128 .f32)
    (h : fn (F := F) a0 a1 a2 a3 a4 a5 a6 a7 a8 a9 a10 a11 a12 = fun _ => 1#1) (i : S2x640000.Idx) :
    (-50000 : ℤ) ≤ (a1 i).toInt ∧ (a1 i).toInt < 50000 :=
  -- the predicate is its three stages composed: the whole is the last stage at the values the first two compute
  part3_range a1 a12 _ _ _ h i

end Cert.Mpnn.PreRange

end
-- ==== Proof.lean ====
/-
  One message-passing layer on a graph of 50000 nodes and 640000 edges: per edge a two-layer perceptron of
  `[h_src | h_dst | e]`, the messages added into their destination nodes, per node a two-layer perceptron of `[h | agg]`
  added to `h` and normalised along the row. The blocked program computes both perceptrons block by block (5000 rows a
  block), each first layer as a SUM of products with the row blocks of its weight instead of one product with the
  concatenated row; the reference concatenates and multiplies once. On the extended reals the two are one function:
  a sum over a concatenated axis is the sum of the sums over its pieces (associativity and commutativity of addition
  only, so no entry needs to be finite), a change of float format is the identity, and the two normalisations agree
  operation by operation.

  The one place the programs differ is the row gather. Both move a negative index up by 50000; the reference then
  gathers (an index outside the table is clamped), the blocked program gathers and keeps the row only where the moved
  index lies in `[0, 49999]`, filling the row otherwise. The statement's precondition keeps every entry of the edge list
  in `[-50000, 50000)` — exactly the indices at which the reference's own row lookup is in range — and there the test
  holds in every row, so the two gathers coincide.

  The three frames: the two programs' are the generated ones; the reference's is its generated run with the result
  dropped. The idealization rewrote nothing, so `preserves` is `True`. For `algebraic` the blocked program's run ends
  with its result buffer at the layer's function of the arguments (KernelRun, KernelValue) and the reference's run with
  its result at the same function (RefValue), of arguments that agree.
-/
import proofs.«428248_j7799660609777_1_alg».proof.Defs
import proofs.«428248_j7799660609777_1_alg».proof.Proof.Gen.Kernel
import proofs.«428248_j7799660609777_1_alg».proof.Proof.Gen.Kernel.Frame
import proofs.«428248_j7799660609777_1_alg».proof.Proof.Gen.KernelIdeal
import proofs.«428248_j7799660609777_1_alg».proof.Proof.Gen.KernelIdeal.Frame
import proofs.«428248_j7799660609777_1_alg».proof.Proof.Gen.ReferenceIdeal
import proofs.«428248_j7799660609777_1_alg».proof.Proof.Gen.Pre_finite_inputs
import proofs.«428248_j7799660609777_1_alg».proof.Proof.Gen.ReferenceIdeal.Run
import proofs.«428248_j7799660609777_1_alg».proof.Proof.Gen.ReferenceIdeal.Read
import proofs.«428248_j7799660609777_1_alg».proof.Proof.KernelRun
import proofs.«428248_j7799660609777_1_alg».proof.Proof.KernelValue
import proofs.«428248_j7799660609777_1_alg».proof.Proof.RefValue
import proofs.«428248_j7799660609777_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at the layer's function of the arguments: the blocked program's under the
    precondition's index range, the reference's unconditionally; the arguments agree. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v15),
    Cert.KernelIdeal.RunResult.run_result m ρ, ?_⟩
  refine (θ_run Cert.ReferenceIdeal.defs _ _).mono (fun _ h c => ⟨(h c).1.trans ?_, (h c).2⟩)
    (Cert.ReferenceIdeal.Value.run (F := Ideal) m' ρ')
  have hr := fun i => Cert.Mpnn.PreRange.index_range _ _ _ _ _ _ _ _ _ _ _ _ _ (hpre c) i
  obtain ⟨a0, a1, a2, a3, a4, a5, a6, a7, a8, a9, a10, a11, a12⟩ := hagree c
  rw [Cert.ReferenceIdeal.Read.val_main_v65_eq, a0, a1, a2, a3, a4, a5, a6, a7, a8, a9, a10, a11, a12,
    Cert.Mpnn.RefValue.result]
  exact (Cert.Mpnn.KernelValue.result m ρ c hr).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
